-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x768 : Shape := ⟨2, ![4096, 768]⟩
abbrev S512x1536 : Shape := ⟨2, ![512, 1536]⟩
abbrev S512 : Shape := ⟨1, ![512]⟩
abbrev S1x512 : Shape := ⟨2, ![1, 512]⟩
abbrev S1 : Shape := ⟨1, ![1]⟩
abbrev S262144 : Shape := ⟨1, ![262144]⟩
abbrev S_ : Shape := ⟨0, ![]⟩

class Facts : Prop where
  bcast_S_S4096x768 : S_.BroadcastsInDim S4096x768 (![] : Fin 0 → Fin S4096x768.rank)
  reducesTo_S4096x768_S_d0_1 : S4096x768.ReducesTo [0, 1] S_
  h_S_ : 0 < S_.numel
  bcast_S_S512x1536 : S_.BroadcastsInDim S512x1536 (![] : Fin 0 → Fin S512x1536.rank)
  reducesTo_S512x1536_S_d0_1 : S512x1536.ReducesTo [0, 1] S_
  bcast_S_S512 : S_.BroadcastsInDim S512 (![] : Fin 0 → Fin S512.rank)
  reducesTo_S512_S_d0 : S512.ReducesTo [0] S_
  bcast_S_S1x512 : S_.BroadcastsInDim S1x512 (![] : Fin 0 → Fin S1x512.rank)
  reducesTo_S1x512_S_d0_1 : S1x512.ReducesTo [0, 1] S_
  bcast_S_S1 : S_.BroadcastsInDim S1 (![] : Fin 0 → Fin S1.rank)
  reducesTo_S1_S_d0 : S1.ReducesTo [0] S_
  bcast_S_S262144 : S_.BroadcastsInDim S262144 (![] : Fin 0 → Fin S262144.rank)
  reducesTo_S262144_S_d0 : S262144.ReducesTo [0] S_

variable [Facts]

def fn_part2 {F : FTy → Type} [FloatOps F] (main_arg6 : IVec S262144 32) (main_v30 : IVec S_ 1) (main_v32 : IVec S262144 1) (main_c_12 : IVec S_ 32) : IVec S_ 1 :=
  let main_v33 : IVec S262144 32 := broadcastInDim S262144 ![] bcast_S_S262144 main_c_12
  let main_v34 : IVec S262144 1 := cmpi .slt main_arg6 main_v33
  let main_v35 : IVec S262144 1 := andi main_v32 main_v34
  let main_c_13 : IVec S_ 1 := constantI S_ 1 1#1
  let main_v36 : IVec S_ 1 := (fun x v => Host.reduce IntOp.andi x v reducesTo_S262144_S_d0 h_S_) main_v35 main_c_13
  let main_v37 : IVec S_ 1 := andi main_v30 main_v36
  main_v37

def fn_part1 {F : FTy → Type} [FloatOps F] (main_arg4 : FVec F S1 .f32) (main_arg5 : IVec S262144 32) (main_arg6 : IVec S262144 32) (main_v13 : IVec S_ 1) (main_v16 : IVec S1x512 1) : IVec S_ 1 :=
  let main_c_5 : IVec S_ 1 := constantI S_ 1 1#1
  let main_v17 : IVec S_ 1 := (fun x v => Host.reduce IntOp.andi x v reducesTo_S1x512_S_d0_1 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  let main_c_8 : IVec S_ 32 := constantI S_ 32 4294963200#32
  let main_v24 : IVec S262144 32 := broadcastInDim S262144 ![] bcast_S_S262144 main_c_8
  let main_v25 : IVec S262144 1 := cmpi .sge main_arg5 main_v24
  let main_c_9 : IVec S_ 32 := constantI S_ 32 4096#32
  let main_v26 : IVec S262144 32 := broadcastInDim S262144 ![] bcast_S_S262144 main_c_9
  let main_v27 : IVec S262144 1 := cmpi .slt main_arg5 main_v26
  let main_v28 : IVec S262144 1 := andi main_v25 main_v27
  let main_c_10 : IVec S_ 1 := constantI S_ 1 1#1
  let main_v29 : IVec S_ 1 := (fun x v => Host.reduce IntOp.andi x v reducesTo_S262144_S_d0 h_S_) main_v28 main_c_10
  let main_v30 : IVec S_ 1 := andi main_v23 main_v29
  let main_c_11 : IVec S_ 32 := constantI S_ 32 4294963200#32
  let main_v31 : IVec S262144 32 := broadcastInDim S262144 ![] bcast_S_S262144 main_c_11
  let main_v32 : IVec S262144 1 := cmpi .sge main_arg6 main_v31
  let main_c_12 : IVec S_ 32 := constantI S_ 32 4096#32
  fn_part2 (F := F) main_arg6 main_v30 main_v32 main_c_12

def fn {F : FTy → Type} [FloatOps F] (main_arg0 : FVec F S4096x768 .f32) (main_arg1 : FVec F S512x1536 .f32) (main_arg2 : FVec F S512 .f32) (main_arg3 : FVec F S1x512 .f32) (main_arg4 : FVec F S1 .f32) (main_arg5 : IVec S262144 32) (main_arg6 : IVec S262144 32) : IVec S_ 1 :=
  let main_v0 : FVec F S4096x768 .f32 := Host.absf main_arg0
  let main_cst : FVec F S_ .f32 := constant S_ .f32 0x7F800000#32
  let main_v1 : FVec F S4096x768 .f32 := broadcastInDim S4096x768 ![] bcast_S_S4096x768 main_cst
  let main_v2 : IVec S4096x768 1 := cmpf .olt main_v0 main_v1
  let main_c : IVec S_ 1 := constantI S_ 1 1#1
  let main_v3 : IVec S_ 1 := (fun x v => Host.reduce IntOp.andi x v reducesTo_S4096x768_S_d0_1 h_S_) main_v2 main_c
  let main_v4 : FVec F S512x1536 .f32 := Host.absf main_arg1
  let main_cst_0 : FVec F S_ .f32 := constant S_ .f32 0x7F800000#32
  let main_v5 : FVec F S512x1536 .f32 := broadcastInDim S512x1536 ![] bcast_S_S512x1536 main_cst_0
  let main_v6 : IVec S512x1536 1 := cmpf .olt main_v4 main_v5
  let main_c_1 : IVec S_ 1 := constantI S_ 1 1#1
  let main_v7 : IVec S_ 1 := (fun x v => Host.reduce IntOp.andi x v reducesTo_S512x1536_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S1x512 .f32 := Host.absf main_arg3
  let main_cst_4 : FVec F S_ .f32 := constant S_ .f32 0x7F800000#32
  let main_v15 : FVec F S1x512 .f32 := broadcastInDim S1x512 ![] bcast_S_S1x512 main_cst_4
  let main_v16 : IVec S1x512 1 := cmpf .olt main_v14 main_v15
  fn_part1 (F := F) main_arg4 main_arg5 main_arg6 main_v13 main_v16
-- ==== Kernel.lean ====
abbrev S4096x768 : Shape := ⟨2, ![4096, 768]⟩
abbrev S512x1536 : Shape := ⟨2, ![512, 1536]⟩
abbrev S512 : Shape := ⟨1, ![512]⟩
abbrev S1x512 : Shape := ⟨2, ![1, 512]⟩
abbrev S1 : Shape := ⟨1, ![1]⟩
abbrev S262144 : Shape := ⟨1, ![262144]⟩
abbrev S512x768 : Shape := ⟨2, ![512, 768]⟩
abbrev S768x512 : Shape := ⟨2, ![768, 512]⟩
abbrev S4096x512 : Shape := ⟨2, ![4096, 512]⟩
abbrev S_ : Shape := ⟨0, ![]⟩
abbrev S262144x1 : Shape := ⟨2, ![262144, 1]⟩
abbrev S1x1 : Shape := ⟨2, ![1, 1]⟩
abbrev S262144x512 : Shape := ⟨2, ![262144, 512]⟩
abbrev S2048x512 : Shape := ⟨2, ![2048, 512]⟩
abbrev S2048x1 : Shape := ⟨2, ![2048, 1]⟩
abbrev S2048 : Shape := ⟨1, ![2048]⟩

abbrev nBuf : Space → Nat
  | .hbm => 66
  | .vmem => 14
  | .smem => 0
  | _ => 0

abbrev bufTy : (tb : Table) → Fin (tcTables nBuf tb) → BufTy
  | .hbm, ⟨0, _⟩ => ⟨S4096x768, .f32⟩
  | .hbm, ⟨1, _⟩ => ⟨S512x1536, .f32⟩
  | .hbm, ⟨2, _⟩ => ⟨S512, .f32⟩
  | .hbm, ⟨3, _⟩ => ⟨S1x512, .f32⟩
  | .hbm, ⟨4, _⟩ => ⟨S1, .f32⟩
  | .hbm, ⟨5, _⟩ => ⟨S262144, .i32⟩
  | .hbm, ⟨6, _⟩ => ⟨S262144, .i32⟩
  | .hbm, ⟨7, _⟩ => ⟨S512x768, .f32⟩
  | .hbm, ⟨8, _⟩ => ⟨S512x768, .f32⟩
  | .hbm, ⟨9, _⟩ => ⟨S768x512, .f32⟩
  | .hbm, ⟨10, _⟩ => ⟨S768x512, .f32⟩
  | .hbm, ⟨11, _⟩ => ⟨S4096x768, .bf16⟩
  | .hbm, ⟨12, _⟩ => ⟨S768x512, .bf16⟩
  | .hbm, ⟨13, _⟩ => ⟨S768x512, .bf16⟩
  | .hbm, ⟨14, _⟩ => ⟨S4096x512, .f32⟩
  | .hbm, ⟨15, _⟩ => ⟨S4096x512, .f32⟩
  | .hbm, ⟨16, _⟩ => ⟨S_, .i32⟩
  | .hbm, ⟨17, _⟩ => ⟨S262144, .i32⟩
  | .hbm, ⟨18, _⟩ => ⟨S262144, .i1⟩
  | .hbm, ⟨19, _⟩ => ⟨S_, .i32⟩
  | .hbm, ⟨20, _⟩ => ⟨S262144, .i32⟩
  | .hbm, ⟨21, _⟩ => ⟨S262144, .i32⟩
  | .hbm, ⟨22, _⟩ => ⟨S262144, .i32⟩
  | .hbm, ⟨23, _⟩ => ⟨S262144x1, .i32⟩
  | .hbm, ⟨24, _⟩ => ⟨S1, .i32⟩
  | .hbm, ⟨25, _⟩ => ⟨S_, .i32⟩
  | .hbm, ⟨26, _⟩ => ⟨S262144x1, .i32⟩
  | .hbm, ⟨27, _⟩ => ⟨S262144x1, .i1⟩
  | .hbm, ⟨28, _⟩ => ⟨S1x1, .i32⟩
  | .hbm, ⟨29, _⟩ => ⟨S262144x1, .i32⟩
  | .hbm, ⟨30, _⟩ => ⟨S262144x1, .i1⟩
  | .hbm, ⟨31, _⟩ => ⟨S262144x1, .i1⟩
  | .hbm, ⟨32, _⟩ => ⟨S_, .i1⟩
  | .hbm, ⟨33, _⟩ => ⟨S262144, .i1⟩
  | .hbm, ⟨34, _⟩ => ⟨S262144x512, .f32⟩
  | .hbm, ⟨35, _⟩ => ⟨S262144x512, .i1⟩
  | .hbm, ⟨36, _⟩ => ⟨S_, .f32⟩
  | .hbm, ⟨37, _⟩ => ⟨S262144x512, .f32⟩
  | .hbm, ⟨38, _⟩ => ⟨S262144x512, .f32⟩
  | .hbm, ⟨39, _⟩ => ⟨S_, .i32⟩
  | .hbm, ⟨40, _⟩ => ⟨S262144, .i32⟩
  | .hbm, ⟨41, _⟩ => ⟨S262144, .i1⟩
  | .hbm, ⟨42, _⟩ => ⟨S_, .i32⟩
  | .hbm, ⟨43, _⟩ => ⟨S262144, .i32⟩
  | .hbm, ⟨44, _⟩ => ⟨S262144, .i32⟩
  | .hbm, ⟨45, _⟩ => ⟨S262144, .i32⟩
  | .hbm, ⟨46, _⟩ => ⟨S262144x1, .i32⟩
  | .hbm, ⟨47, _⟩ => ⟨S1, .i32⟩
  | .hbm, ⟨48, _⟩ => ⟨S_, .i32⟩
  | .hbm, ⟨49, _⟩ => ⟨S262144x1, .i32⟩
  | .hbm, ⟨50, _⟩ => ⟨S262144x1, .i1⟩
  | .hbm, ⟨51, _⟩ => ⟨S1x1, .i32⟩
  | .hbm, ⟨52, _⟩ => ⟨S262144x1, .i32⟩
  | .hbm, ⟨53, _⟩ => ⟨S262144x1, .i1⟩
  | .hbm, ⟨54, _⟩ => ⟨S262144x1, .i1⟩
  | .hbm, ⟨55, _⟩ => ⟨S_, .i1⟩
  | .hbm, ⟨56, _⟩ => ⟨S262144, .i1⟩
  | .hbm, ⟨57, _⟩ => ⟨S262144x512, .f32⟩
  | .hbm, ⟨58, _⟩ => ⟨S262144x512, .i1⟩
  | .hbm, ⟨59, _⟩ => ⟨S_, .f32⟩
  | .hbm, ⟨60, _⟩ => ⟨S262144x512, .f32⟩
  | .hbm, ⟨61, _⟩ => ⟨S262144x512, .f32⟩
  | .hbm, ⟨62, _⟩ => ⟨S1x512, .f32⟩
  | .hbm, ⟨63, _⟩ => ⟨S1x1, .f32⟩
  | .hbm, ⟨64, _⟩ => ⟨S262144x1, .f32⟩
  | .hbm, ⟨65, _⟩ => ⟨S262144, .f32⟩
  | .local _ .vmem, ⟨0, _⟩ => ⟨S4096x768, .bf16⟩
  | .local _ .vmem, ⟨1, _⟩ => ⟨S768x512, .bf16⟩
  | .local _ .vmem, ⟨2, _⟩ => ⟨S768x512, .bf16⟩
  | .local _ .vmem, ⟨3, _⟩ => ⟨S4096x512, .f32⟩
  | .local _ .vmem, ⟨4, _⟩ => ⟨S4096x512, .f32⟩
  | .local _ .vmem, ⟨5, _⟩ => ⟨S2048x512, .f32⟩
  | .local _ .vmem, ⟨6, _⟩ => ⟨S2048x512, .f32⟩
  | .local _ .vmem, ⟨7, _⟩ => ⟨S2048x512, .f32⟩
  | .local _ .vmem, ⟨8, _⟩ => ⟨S2048x512, .f32⟩
  | .local _ .vmem, ⟨9, _⟩ => ⟨S1x512, .f32⟩
  | .local _ .vmem, ⟨10, _⟩ => ⟨S1x512, .f32⟩
  | .local _ .vmem, ⟨11, _⟩ => ⟨S1x1, .f32⟩
  | .local _ .vmem, ⟨12, _⟩ => ⟨S2048x1, .f32⟩
  | .local _ .vmem, ⟨13, _⟩ => ⟨S2048x1, .f32⟩
  | _, _ => ⟨S4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_call0_c : Ref sig .tc := ⟨.hbm, 16, rfl⟩
abbrev main_call0_v0 : Ref sig .tc := ⟨.hbm, 17, rfl⟩
abbrev main_call0_v1 : Ref sig .tc := ⟨.hbm, 18, rfl⟩
abbrev main_call0_c_0 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_c_1 : Ref sig .tc := ⟨.hbm, 24, rfl⟩
abbrev main_call0_c_2 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_c_3 : Ref sig .tc := ⟨.hbm, 32, rfl⟩
abbrev main_call0_v12 : Ref sig .tc := ⟨.hbm, 33, rfl⟩
abbrev main_call0_v13 : Ref sig .tc := ⟨.hbm, 34, rfl⟩
abbrev main_call0_v14 : Ref sig .tc := ⟨.hbm, 35, rfl⟩
abbrev main_call0_cst : Ref sig .tc := ⟨.hbm, 36, rfl⟩
abbrev main_call0_v15 : Ref sig .tc := ⟨.hbm, 37, rfl⟩
abbrev main_v8 : Ref sig .tc := ⟨.hbm, 38, rfl⟩
abbrev main_call1_c : Ref sig .tc := ⟨.hbm, 39, rfl⟩
abbrev main_call1_v0 : Ref sig .tc := ⟨.hbm, 40, rfl⟩
abbrev main_call1_v1 : Ref sig .tc := ⟨.hbm, 41, rfl⟩
abbrev main_call1_c_0 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_call1_v5 : Ref sig .tc := ⟨.hbm, 46, rfl⟩
abbrev main_call1_c_1 : Ref sig .tc := ⟨.hbm, 47, rfl⟩
abbrev main_call1_c_2 : Ref sig .tc := ⟨.hbm, 48, rfl⟩
abbrev main_call1_v6 : Ref sig .tc := ⟨.hbm, 49, rfl⟩
abbrev main_call1_v7 : Ref sig .tc := ⟨.hbm, 50, rfl⟩
abbrev main_call1_v8 : Ref sig .tc := ⟨.hbm, 51, rfl⟩
abbrev main_call1_v9 : Ref sig .tc := ⟨.hbm, 52, rfl⟩
abbrev main_call1_v10 : Ref sig .tc := ⟨.hbm, 53, rfl⟩
abbrev main_call1_v11 : Ref sig .tc := ⟨.hbm, 54, rfl⟩
abbrev main_call1_c_3 : Ref sig .tc := ⟨.hbm, 55, rfl⟩
abbrev main_call1_v12 : Ref sig .tc := ⟨.hbm, 56, rfl⟩
abbrev main_call1_v13 : Ref sig .tc := ⟨.hbm, 57, rfl⟩
abbrev main_call1_v14 : Ref sig .tc := ⟨.hbm, 58, rfl⟩
abbrev main_call1_cst : Ref sig .tc := ⟨.hbm, 59, rfl⟩
abbrev main_call1_v15 : Ref sig .tc := ⟨.hbm, 60, rfl⟩
abbrev main_v9 : Ref sig .tc := ⟨.hbm, 61, rfl⟩
abbrev main_v10 : Ref sig .tc := ⟨.hbm, 62, rfl⟩
abbrev main_v11 : Ref sig .tc := ⟨.hbm, 63, rfl⟩
abbrev main_v12 : Ref sig .tc := ⟨.hbm, 64, rfl⟩
abbrev main_v13 : Ref sig .tc := ⟨.hbm, 65, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg5_1 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem5_1 : DmaSem sig := 13

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S4096x768 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S768x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S768x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨1, ![128], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2048x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S512x1536_S512x768_0_0 : S512x1536.Slices ![0, 0] S512x768
  slices_S512x1536_S512x768_0_768 : S512x1536.Slices ![0, 768] S512x768
  transposes_S512x768_S768x512_1_0 : S512x768.Transposes [1, 0] S768x512
  bitsLt_bf16_f32 : FTy.bits .bf16 < FTy.bits .f32
  inb_S4096x768_S4096x768_0_0 : ∀ a, (![0, 0] : Fin 2 → Nat) a + S4096x768.size a ≤ S4096x768.size a
  h_S4096x768 : 0 < S4096x768.numel
  shapeCasts_S4096x768_S4096x768 : S4096x768.ShapeCasts S4096x768
  inb_S768x512_S768x512_0_0 : ∀ a, (![0, 0] : Fin 2 → Nat) a + S768x512.size a ≤ S768x512.size a
  h_S768x512 : 0 < S768x512.numel
  shapeCasts_S768x512_S768x512 : S768x512.ShapeCasts S768x512
  inb_S4096x512_S4096x512_0_0 : ∀ a, (![0, 0] : Fin 2 → Nat) a + S4096x512.size a ≤ S4096x512.size a
  h_S4096x512 : 0 < S4096x512.numel
  bcast_S_S262144 : S_.BroadcastsInDim S262144 (![] : Fin 0 → Fin S262144.rank)
  bcast_S262144_S262144x1_0 : S262144.BroadcastsInDim S262144x1 (![0] : Fin 1 → Fin S262144x1.rank)
  bcast_S_S262144x1 : S_.BroadcastsInDim S262144x1 (![] : Fin 0 → Fin S262144x1.rank)
  bcast_S1_S1x1_1 : S1.BroadcastsInDim S1x1 (![1] : Fin 1 → Fin S1x1.rank)
  bcast_S1x1_S262144x1_0_1 : S1x1.BroadcastsInDim S262144x1 (![0, 1] : Fin 2 → Fin S262144x1.rank)
  reducesTo_S262144x1_S262144_d1 : S262144x1.ReducesTo [1] S262144
  h_S_ : 0 < S_.numel
  bcast_S262144_S262144x512_0 : S262144.BroadcastsInDim S262144x512 (![0] : Fin 1 → Fin S262144x512.rank)
  bcast_S_S262144x512 : S_.BroadcastsInDim S262144x512 (![] : Fin 0 → Fin S262144x512.rank)
  shapeCasts_S512_S1x512 : S512.ShapeCasts S1x512
  shapeCasts_S1_S1x1 : S1.ShapeCasts S1x1
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2048x512 : S1x512.Broadcasts S2048x512
  reduces_S2048x512_S2048 : S2048x512.Reduces [1] S2048
  shapeCasts_S2048_S2048x1 : S2048.ShapeCasts S2048x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2048x1 : S1x1.Broadcasts S2048x1
  inb_S2048x1_S2048x1_0_0 : ∀ a, (![0, 0] : Fin 2 → Nat) a + S2048x1.size a ≤ S2048x1.size a
  h_S2048x1 : 0 < S2048x1.numel
  shapeCasts_S262144x1_S262144 : S262144x1.ShapeCasts S262144
  dot_S4096x768_S768x512_S4096x512_1_0_0_1_n_n_wf : DotDims.WF S4096x768 S768x512 S4096x512 [1] [0] [0] [1] [] []
  gather_S4096x512_S262144x1_S262144x512_1_0_n_n_0_1_1512_wf : GatherDims.WF S4096x512 S262144x1 S262144x512 [1] [0] [] [0] [] 1 ![1, 512]
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S4096x768.size a ≤ S4096x768.size a
  hwx0_0 : ∀ i : grid0.Coords, EltTy.bits .bf16 = 32 ∨ (Rect.block (s := S4096x768) S4096x768.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x512.size a ≤ S768x512.size a
  hwx0_1 : ∀ i : grid0.Coords, EltTy.bits .bf16 = 32 ∨ (Rect.block (s := S768x512) S768x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S768x512.size a ≤ S768x512.size a
  hwx0_2 : ∀ i : grid0.Coords, EltTy.bits .bf16 = 32 ∨ (Rect.block (s := S768x512) S768x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x512.size a ≤ S4096x512.size a
  hwx0_3 : ∀ i : grid0.Coords, EltTy.bits .f32 = 32 ∨ (Rect.block (s := S4096x512) S4096x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4096x512.size a ≤ S4096x512.size a
  hwx0_4 : ∀ i : grid0.Coords, EltTy.bits .f32 = 32 ∨ (Rect.block (s := S4096x512) S4096x512.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x512.size a ≤ S262144x512.size a
  hwx1_0 : ∀ i : grid1.Coords, EltTy.bits .f32 = 32 ∨ (Rect.block (s := S262144x512) S2048x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x512.size a ≤ S262144x512.size a
  hwx1_1 : ∀ i : grid1.Coords, EltTy.bits .f32 = 32 ∨ (Rect.block (s := S262144x512) S2048x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x512.size a
  hwx1_3 : ∀ i : grid1.Coords, EltTy.bits .f32 = 32 ∨ (Rect.block (s := S1x512) S1x512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1.size a ≤ S1x1.size a
  hwx1_4 : ∀ i : grid1.Coords, EltTy.bits .f32 = 32 ∨ (Rect.block (s := S1x1) S1x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2048x1.size a ≤ S262144x1.size a
  hwx1_5 : ∀ i : grid1.Coords, EltTy.bits .f32 = 32 ∨ (Rect.block (s := S262144x1) S2048x1.size (cc1_transform_5 i) (hinb1_5 i)).WholeWords (EltTy.packing .f32)

variable [Facts₀]

def dot_S4096x768_S768x512_S4096x512_1_0_0_1_n_n : DotDims S4096x768 S768x512 S4096x512 where
  lhsContracting := [1]
  rhsContracting := [0]
  lhsNonContracting := [0]
  rhsNonContracting := [1]
  lhsBatch := []
  rhsBatch := []
  wf := dot_S4096x768_S768x512_S4096x512_1_0_0_1_n_n_wf
def gather_S4096x512_S262144x1_S262144x512_1_0_n_n_0_1_1512 : GatherDims S4096x512 S262144x1 S262144x512 where
  offsetDims := [1]
  collapsedSliceDims := [0]
  operandBatchingDims := []
  startIndicesBatchingDims := []
  startIndexMap := [0]
  indexVectorDim := 1
  sliceSizes := ![1, 512]
  wf := gather_S4096x512_S262144x1_S262144x512_1_0_n_n_0_1_1512_wf

abbrev win0_0 : Pipeline.Window sig grid0 :=
  Pipeline.Window.ofSpec (Memref.whole main_v4) S4096x768.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v5) S768x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S768x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7_0) S4096x512.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7_1) S4096x512.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v8) S2048x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9) S2048x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v10) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S1x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v11) S1x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v12) S2048x1.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S4096x768 : Shape := ⟨2, ![4096, 768]⟩
abbrev S512x1536 : Shape := ⟨2, ![512, 1536]⟩
abbrev S512 : Shape := ⟨1, ![512]⟩
abbrev S1x512 : Shape := ⟨2, ![1, 512]⟩
abbrev S1 : Shape := ⟨1, ![1]⟩
abbrev S262144 : Shape := ⟨1, ![262144]⟩
abbrev S512x768 : Shape := ⟨2, ![512, 768]⟩
abbrev S_ : Shape := ⟨0, ![]⟩
abbrev S262144x1 : Shape := ⟨2, ![262144, 1]⟩
abbrev S262144x768 : Shape := ⟨2, ![262144, 768]⟩
abbrev S262144x512 : Shape := ⟨2, ![262144, 512]⟩
abbrev S512x1 : Shape := ⟨2, ![512, 1]⟩
abbrev S1x1 : Shape := ⟨2, ![1, 1]⟩

abbrev nBuf : Space → Nat
  | .hbm => 40
  | .vmem => 0
  | .smem => 0
  | _ => 0

abbrev bufTy : (tb : Table) → Fin (tcTables nBuf tb) → BufTy
  | .hbm, ⟨0, _⟩ => ⟨S4096x768, .f32⟩
  | .hbm, ⟨1, _⟩ => ⟨S512x1536, .f32⟩
  | .hbm, ⟨2, _⟩ => ⟨S512, .f32⟩
  | .hbm, ⟨3, _⟩ => ⟨S1x512, .f32⟩
  | .hbm, ⟨4, _⟩ => ⟨S1, .f32⟩
  | .hbm, ⟨5, _⟩ => ⟨S262144, .i32⟩
  | .hbm, ⟨6, _⟩ => ⟨S262144, .i32⟩
  | .hbm, ⟨7, _⟩ => ⟨S512x768, .f32⟩
  | .hbm, ⟨8, _⟩ => ⟨S512x768, .f32⟩
  | .hbm, ⟨9, _⟩ => ⟨S_, .i32⟩
  | .hbm, ⟨10, _⟩ => ⟨S262144, .i32⟩
  | .hbm, ⟨11, _⟩ => ⟨S262144, .i1⟩
  | .hbm, ⟨12, _⟩ => ⟨S_, .i32⟩
  | .hbm, ⟨13, _⟩ => ⟨S262144, .i32⟩
  | .hbm, ⟨14, _⟩ => ⟨S262144, .i32⟩
  | .hbm, ⟨15, _⟩ => ⟨S262144, .i32⟩
  | .hbm, ⟨16, _⟩ => ⟨S262144x1, .i32⟩
  | .hbm, ⟨17, _⟩ => ⟨S262144x768, .f32⟩
  | .hbm, ⟨18, _⟩ => ⟨S262144x512, .f32⟩
  | .hbm, ⟨19, _⟩ => ⟨S_, .i32⟩
  | .hbm, ⟨20, _⟩ => ⟨S262144, .i32⟩
  | .hbm, ⟨21, _⟩ => ⟨S262144, .i1⟩
  | .hbm, ⟨22, _⟩ => ⟨S_, .i32⟩
  | .hbm, ⟨23, _⟩ => ⟨S262144, .i32⟩
  | .hbm, ⟨24, _⟩ => ⟨S262144, .i32⟩
  | .hbm, ⟨25, _⟩ => ⟨S262144, .i32⟩
  | .hbm, ⟨26, _⟩ => ⟨S262144x1, .i32⟩
  | .hbm, ⟨27, _⟩ => ⟨S262144x768, .f32⟩
  | .hbm, ⟨28, _⟩ => ⟨S262144x512, .f32⟩
  | .hbm, ⟨29, _⟩ => ⟨S262144x512, .f32⟩
  | .hbm, ⟨30, _⟩ => ⟨S1x512, .f32⟩
  | .hbm, ⟨31, _⟩ => ⟨S262144x512, .f32⟩
  | .hbm, ⟨32, _⟩ => ⟨S262144x512, .f32⟩
  | .hbm, ⟨33, _⟩ => ⟨S262144x512, .f32⟩
  | .hbm, ⟨34, _⟩ => ⟨S512x1, .f32⟩
  | .hbm, ⟨35, _⟩ => ⟨S262144x1, .f32⟩
  | .hbm, ⟨36, _⟩ => ⟨S1x1, .f32⟩
  | .hbm, ⟨37, _⟩ => ⟨S262144x1, .f32⟩
  | .hbm, ⟨38, _⟩ => ⟨S262144x1, .f32⟩
  | .hbm, ⟨39, _⟩ => ⟨S262144, .f32⟩
  | _, _ => ⟨S4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c_1 : Ref sig .tc := ⟨.hbm, 19, rfl⟩
abbrev main_v10 : Ref sig .tc := ⟨.hbm, 20, rfl⟩
abbrev main_v11 : Ref sig .tc := ⟨.hbm, 21, rfl⟩
abbrev main_c_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]

class Facts₀ : Prop where
  slices_S512x1536_S512x768_0_0 : S512x1536.Slices ![0, 0] S512x768
  slices_S512x1536_S512x768_0_768 : S512x1536.Slices ![0, 768] S512x768
  bcast_S_S262144 : S_.BroadcastsInDim S262144 (![] : Fin 0 → Fin S262144.rank)
  bcast_S262144_S262144x1_0 : S262144.BroadcastsInDim S262144x1 (![0] : Fin 1 → Fin S262144x1.rank)
  bcast_S512_S1x512_1 : S512.BroadcastsInDim S1x512 (![1] : Fin 1 → Fin S1x512.rank)
  bcast_S1x512_S262144x512_0_1 : S1x512.BroadcastsInDim S262144x512 (![0, 1] : Fin 2 → Fin S262144x512.rank)
  transposes_S1x512_S512x1_1_0 : S1x512.Transposes [1, 0] S512x1
  bcast_S1_S1x1_1 : S1.BroadcastsInDim S1x1 (![1] : Fin 1 → Fin S1x1.rank)
  bcast_S1x1_S262144x1_0_1 : S1x1.BroadcastsInDim S262144x1 (![0, 1] : Fin 2 → Fin S262144x1.rank)
  shapeCasts_S262144x1_S262144 : S262144x1.ShapeCasts S262144
  gather_S4096x768_S262144x1_S262144x768_1_0_n_n_0_1_1768_wf : GatherDims.WF S4096x768 S262144x1 S262144x768 [1] [0] [] [0] [] 1 ![1, 768]
  dot_S262144x768_S512x768_S262144x512_1_1_0_0_n_n_wf : DotDims.WF S262144x768 S512x768 S262144x512 [1] [1] [0] [0] [] []
  dot_S262144x512_S512x1_S262144x1_1_0_0_1_n_n_wf : DotDims.WF S262144x512 S512x1 S262144x1 [1] [0] [0] [1] [] []

variable [Facts₀]

def gather_S4096x768_S262144x1_S262144x768_1_0_n_n_0_1_1768 : GatherDims S4096x768 S262144x1 S262144x768 where
  offsetDims := [1]
  collapsedSliceDims := [0]
  operandBatchingDims := []
  startIndicesBatchingDims := []
  startIndexMap := [0]
  indexVectorDim := 1
  sliceSizes := ![1, 768]
  wf := gather_S4096x768_S262144x1_S262144x768_1_0_n_n_0_1_1768_wf
def dot_S262144x768_S512x768_S262144x512_1_1_0_0_n_n : DotDims S262144x768 S512x768 S262144x512 where
  lhsContracting := [1]
  rhsContracting := [1]
  lhsNonContracting := [0]
  rhsNonContracting := [0]
  lhsBatch := []
  rhsBatch := []
  wf := dot_S262144x768_S512x768_S262144x512_1_1_0_0_n_n_wf
def dot_S262144x512_S512x1_S262144x1_1_0_0_1_n_n : DotDims S262144x512 S512x1 S262144x1 where
  lhsContracting := [1]
  rhsContracting := [0]
  lhsNonContracting := [0]
  rhsNonContracting := [1]
  lhsBatch := []
  rhsBatch := []
  wf := dot_S262144x512_S512x1_S262144x1_1_0_0_1_n_n_wf

class Facts : Prop extends Facts₀ where

variable [Facts]
-- ==== Proof.Tables.lean ====
/-
  The two projected tables: what the first kernel leaves in its two output arrays.

  The first kernel runs at one grid point; each of its five windows is its whole array. Its body multiplies the embedding
  table by the transposed head half of the hidden weights into one output and by the transposed dependent half into the
  other, each from the zero accumulator. So after the region each output array holds that product of the arrays the
  region found in its inputs.
-/
import proofs.«401059_j22050362098343_2_alg».proof.Proof.Gen.KernelIdeal.Frame
import Idealize.ShloMosaic.Lib.Pipeline.Value

set_option maxRecDepth 16384

noncomputable section

namespace Cert.ArcScore.Tables

open Cert.KernelIdeal Cert.KernelIdeal.Gen
open Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

theorem zero_off : (![0, 0] : Fin 2 → Nat) = fun _ => 0 := funext fun a => by fin_cases a <;> rfl

/-- At the one grid point every window's block index is (0, 0). -/
theorem block_index : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- The embedding window's block is the whole array the region found. -/
theorem emb_block (c : Dev nD) (t : Fin cfg0.N) : iblk0 V c 0 t = V c main_v4 := by
  obtain ⟨e0, e1, -⟩ := block_index t
  funext j
  show V c main_v4 (((cfg0.win 0).blk t).view.emb j) = V c main_v4 j
  refine congrArg (V c main_v4) (funext fun a => Fin.ext ?_)
  match a with
  | ⟨0, _⟩ => show win0_0.index t (0 : Fin 2) * 4096 + 1 * (j 0).val = (j 0).val; omega
  | ⟨1, _⟩ => show win0_0.index t (1 : Fin 2) * 768 + 1 * (j 1).val = (j 1).val; omega

/-- The head weights' window's block is the whole array the region found. -/
theorem head_block (c : Dev nD) (t : Fin cfg0.N) : iblk0 V c 1 t = V c main_v5 := by
  obtain ⟨-, -, e0, e1, -⟩ := block_index t
  funext j
  show V c main_v5 (((cfg0.win 1).blk t).view.emb j) = V c main_v5 j
  refine congrArg (V c main_v5) (funext fun a => Fin.ext ?_)
  match a with
  | ⟨0, _⟩ => show win0_1.index t (0 : Fin 2) * 768 + 1 * (j 0).val = (j 0).val; omega
  | ⟨1, _⟩ => show win0_1.index t (1 : Fin 2) * 512 + 1 * (j 1).val = (j 1).val; omega

/-- The dependent weights' window's block is the whole array the region found. -/
theorem dep_block (c : Dev nD) (t : Fin cfg0.N) : iblk0 V c 2 t = V c main_v6 := by
  obtain ⟨-, -, -, -, e0, e1, -⟩ := block_index t
  funext j
  show V c main_v6 (((cfg0.win 2).blk t).view.emb j) = V c main_v6 j
  refine congrArg (V c main_v6) (funext fun a => Fin.ext ?_)
  match a with
  | ⟨0, _⟩ => show win0_2.index t (0 : Fin 2) * 768 + 1 * (j 0).val = (j 0).val; omega
  | ⟨1, _⟩ => show win0_2.index t (1 : Fin 2) * 512 + 1 * (j 1).val = (j 1).val; omega

/-- What the one point writes back into the head table is the whole product. -/
theorem head_flushed (c : Dev nD) (t : Fin cfg0.N) :
    (dat0 V c).flushed 3 t = ((cfg0.win 3).blk t).view.read (Elt F) (k0_pay2 (V c main_v4) (V c main_v5)) := by
  show (cfg0.win 3).cut (grid0.coords t) ((dat0 V c).after 3 t) = _
  rw [after0_3]
  unfold out0_3
  rw [View.canon_unit_zero zero_off]
  simp only [View.ld_unit_zero (S := S4096x768) zero_off, View.ld_unit_zero (S := S768x512) zero_off]
  rw [emb_block V c t, head_block V c t]
  obtain ⟨-, -, -, -, -, -, e0, e1, -⟩ := block_index t
  funext j
  show k0_pay2 (V c main_v4) (V c main_v5) j = k0_pay2 (V c main_v4) (V c main_v5) (((cfg0.win 3).blk t).view.emb j)
  refine congrArg (k0_pay2 (V c main_v4) (V c main_v5)) (funext fun a => Fin.ext ?_)
  match a with
  | ⟨0, _⟩ => show (j 0).val = win0_3.index t (0 : Fin 2) * 4096 + 1 * (j 0).val; omega
  | ⟨1, _⟩ => show (j 1).val = win0_3.index t (1 : Fin 2) * 512 + 1 * (j 1).val; omega

/-- What the one point writes back into the dependent table is the whole product. -/
theorem dep_flushed (c : Dev nD) (t : Fin cfg0.N) :
    (dat0 V c).flushed 4 t = ((cfg0.win 4).blk t).view.read (Elt F) (k0_pay3 (V c main_v4) (V c main_v6)) := by
  show (cfg0.win 4).cut (grid0.coords t) ((dat0 V c).after 4 t) = _
  rw [after0_4]
  unfold out0_4
  rw [View.canon_unit_zero zero_off]
  simp only [View.ld_unit_zero (S := S4096x768) zero_off, View.ld_unit_zero (S := S768x512) zero_off]
  rw [emb_block V c t, dep_block V c t]
  obtain ⟨-, -, -, -, -, -, -, -, e0, e1⟩ := block_index t
  funext j
  show k0_pay3 (V c main_v4) (V c main_v6) j = k0_pay3 (V c main_v4) (V c main_v6) (((cfg0.win 4).blk t).view.emb j)
  refine congrArg (k0_pay3 (V c main_v4) (V c main_v6)) (funext fun a => Fin.ext ?_)
  match a with
  | ⟨0, _⟩ => show (j 0).val = win0_4.index t (0 : Fin 2) * 4096 + 1 * (j 0).val; omega
  | ⟨1, _⟩ => show (j 1).val = win0_4.index t (1 : Fin 2) * 512 + 1 * (j 1).val; omega

/-- An index of a [4096, 512] output lies in the one point's block of window w (3 or 4). -/
theorem head_mem (t : Fin cfg0.N) (i : S4096x512.Idx) : i ∈ ((cfg0.win 3).blk t).view.set := by
  obtain ⟨-, -, -, -, -, -, e0, e1, -⟩ := block_index t
  show i ∈ ((View.whole main_v7_0).slice (win0_3.rect t)).set
  rw [View.set_slice_whole, Rect.mem_set_unit]
  intro a
  have h0 : (i 0).val < 4096 := (i 0).isLt
  have h1 : (i 1).val < 512 := (i 1).isLt
  match a with
  | ⟨0, _⟩ => show win0_3.index t (0 : Fin 2) * 4096 ≤ (i 0).val ∧ (i 0).val < win0_3.index t (0 : Fin 2) * 4096 + 4096; omega
  | ⟨1, _⟩ => show win0_3.index t (1 : Fin 2) * 512 ≤ (i 1).val ∧ (i 1).val < win0_3.index t (1 : Fin 2) * 512 + 512; omega

theorem dep_mem (t : Fin cfg0.N) (i : S4096x512.Idx) : i ∈ ((cfg0.win 4).blk t).view.set := by
  obtain ⟨-, -, -, -, -, -, -, -, e0, e1⟩ := block_index t
  show i ∈ ((View.whole main_v7_1).slice (win0_4.rect t)).set
  rw [View.set_slice_whole, Rect.mem_set_unit]
  intro a
  have h0 : (i 0).val < 4096 := (i 0).isLt
  have h1 : (i 1).val < 512 := (i 1).isLt
  match a with
  | ⟨0, _⟩ => show win0_4.index t (0 : Fin 2) * 4096 ≤ (i 0).val ∧ (i 0).val < win0_4.index t (0 : Fin 2) * 4096 + 4096; omega
  | ⟨1, _⟩ => show win0_4.index t (1 : Fin 2) * 512 ≤ (i 1).val ∧ (i 1).val < win0_4.index t (1 : Fin 2) * 512 + 512; omega

/-- THE HEAD TABLE after the first region: the embedding table times the transposed head weights. -/
theorem head_table (c : Dev nD) : (dat0 V c).arrAt 3 cfg0.N = k0_pay2 (V c main_v4) (V c main_v5) :=
  (dat0 V c).arrAt_eq_of_cover 3 _ (fun t _ => head_flushed V c t) (fun i => ⟨t0_0, flush0_3 t0_0, head_mem t0_0 i⟩)

/-- THE DEPENDENT TABLE after the first region: the embedding table times the transposed dependent weights. -/
theorem dep_table (c : Dev nD) : (dat0 V c).arrAt 4 cfg0.N = k0_pay3 (V c main_v4) (V c main_v6) :=
  (dat0 V c).arrAt_eq_of_cover 4 _ (fun t _ => dep_flushed V c t) (fun i => ⟨t0_0, flush0_4 t0_0, dep_mem t0_0 i⟩)

end Cert.ArcScore.Tables

end
-- ==== Proof.LibUnitAxis.lean ====
/-
  Index broadcasts and a conjunction over a unit axis, read at an index.

  A vector laid as a column, or repeated along columns, reads the vector's entry of the row; a scalar laid over any shape
  reads its one value; the conjunction of a one-bit column [M, 1] over its unit axis, from the initial value one, is the
  column's own bit.
-/
import Idealize.ShloMosaic.Lib.ValueIdx
import Idealize.ShloMosaic.Lib.Pipeline.Value
import Idealize.ShloMosaic.Lib.ValueLayout
import Idealize.ShloMosaic.PureOps.Reduce

noncomputable section

namespace Cert.LibUnitAxis

open Idealize.ShloMosaic Idealize.ShloMosaic.ValueIdx

variable {α : Type}

/-- A vector [M] laid as one column [M, 1], read at (p, 0): the vector at p. -/
theorem bcast_col_apply {M : Nat} (h : (⟨1, ![M]⟩ : Shape).BroadcastsInDim ⟨2, ![M, 1]⟩ ![0])
    (v : (⟨1, ![M]⟩ : Shape).Idx → α) (p : Fin M) :
    broadcastInDim ⟨2, ![M, 1]⟩ ![0] h v (ix2 p (0 : Fin 1)) = v (ix1 p) := by
  refine broadcastInDim_apply _ h v _ (ix1 p) ?_
  intro a
  match a with
  | ⟨0, _⟩ =>
    show p.val = if M = 1 then 0 else p.val
    split
    · next h1 => have := p.isLt; omega
    · rfl

/-- A vector [M] repeated along C columns [M, C], read at (p, q): the vector at p. -/
theorem bcast_cols_apply {M C : Nat} (h : (⟨1, ![M]⟩ : Shape).BroadcastsInDim ⟨2, ![M, C]⟩ ![0])
    (v : (⟨1, ![M]⟩ : Shape).Idx → α) (p : Fin M) (q : Fin C) :
    broadcastInDim ⟨2, ![M, C]⟩ ![0] h v (ix2 p q) = v (ix1 p) := by
  refine broadcastInDim_apply _ h v _ (ix1 p) ?_
  intro a
  match a with
  | ⟨0, _⟩ =>
    show p.val = if M = 1 then 0 else p.val
    split
    · next h1 => have := p.isLt; omega
    · rfl

/-- A scalar constant laid over a column [M, 1] or any shape reads its one value everywhere. -/
theorem bcast_scalar_apply {t : Shape} (h : (⟨0, ![]⟩ : Shape).BroadcastsInDim t ![]) (v : (⟨0, ![]⟩ : Shape).Idx → α)
    (j : t.Idx) : broadcastInDim t ![] h v j = v ix0 := by
  exact broadcastInDim_apply _ h v j ix0 (fun a => a.elim0)

/-- THE MASK'S REDUCTION. The conjunction of a one-bit column [M, 1] over its unit axis, from an initial value 1, is
    at p the column's bit at (p, 0): one element, and 1 ∧ b = b. -/
theorem reduce_andi_unit_apply {M : Nat} {u : Shape} (x : IVec ⟨2, ![M, 1]⟩ 1) (init : u.Idx → BitVec 1)
    (h : (⟨2, ![M, 1]⟩ : Shape).ReducesTo [1] ⟨1, ![M]⟩) (hu : 0 < u.numel) (hinit : ∀ i, init i = 1#1) (p : Fin M) :
    Host.reduce IntOp.andi x init h hu (ix1 p) = x (ix2 p (0 : Fin 1)) := by
  rw [Host.reduce_eq_fold]
  have hset : (Finset.univ.filter fun i : (⟨2, ![M, 1]⟩ : Shape).Idx => h.drop i = ix1 p)
      = {ix2 p (0 : Fin 1)} := by
    ext i
    simp only [Finset.mem_filter, Finset.mem_univ, true_and, Finset.mem_singleton]
    have hv : ((h.drop i) 0 : Nat) = (i 0).val := Shape.ReducesTo.drop_apply_val h i 0
    constructor
    · intro e
      rw [e] at hv
      funext a
      match a with
      | ⟨0, _⟩ => exact Fin.ext hv.symm
      | ⟨1, _⟩ =>
        refine Fin.ext ?_
        have h1 : (i 1).val < 1 := (i 1).isLt
        show (i 1).val = 0
        omega
    · intro e
      subst e
      funext b
      match b with
      | ⟨0, _⟩ => exact Fin.ext hv
  rw [hset, Finset.fold_singleton, hinit]
  rcases BitVec.eq_zero_or_eq_one (x (ix2 p (0 : Fin 1))) with e | e <;> rw [e] <;> decide

end Cert.LibUnitAxis

end
-- ==== Proof.LibTakeFill.lean ====
/-
  A take of rows in fill mode is the plain gather when every index is a row number.

  jnp.take(x, idx, axis=0) on an [N, C] table, in its default mode, lowers to: wrap a negative index once (idx + N where
  idx < 0); gather the rows at the wrapped indices (the gather clamps its start index into [0, N - 1]); and replace by a
  fill value every row whose wrapped index lies outside [0, N - 1], the test being taken per index, reduced with "and"
  over the unit axis of the [M, 1] index column, and laid along the row. When every index already lies in [0, N), the
  wrap does nothing, the test holds for every row, and the whole expression is the gather at the wrapped indices.
  Stated with the lowering's own operations and its shape facts as variables, so it applies to a program's own text.
-/
import Idealize.ShloMosaic.PureOps.Ideal
import Idealize.ShloMosaic.PureOps.Reduce
import Idealize.ShloMosaic.Lib.ValueIdx
import Idealize.ShloMosaic.Lib.ValueLayout
import Idealize.ShloMosaic.Lib.Pipeline.Value
import proofs.«401059_j22050362098343_2_alg».proof.Proof.LibUnitAxis

noncomputable section

namespace Cert.LibTakeFill

open Idealize.ShloMosaic Idealize.ShloMosaic.ValueIdx

variable {N C M : ℕ}

abbrev S0 : Shape := ⟨0, ![]⟩
abbrev S1 : Shape := ⟨1, ![1]⟩
abbrev S11 : Shape := ⟨2, ![1, 1]⟩

/-- The wrapped index column: idx + n where idx < 0, else idx, laid as an [M, 1] column. (nWord is N as a 32-bit word.) -/
def wrapCol (nWord : BitVec 32) (b0 : S0.BroadcastsInDim ⟨1, ![M]⟩ (![] : Fin 0 → Fin 1))
    (bcol : (⟨1, ![M]⟩ : Shape).BroadcastsInDim ⟨2, ![M, 1]⟩ (![0] : Fin 1 → Fin 2))
    (idx : IVec ⟨1, ![M]⟩ 32) : IVec ⟨2, ![M, 1]⟩ 32 :=
  broadcastInDim ⟨2, ![M, 1]⟩ ![0] bcol
    (select (cmpi .slt idx (broadcastInDim ⟨1, ![M]⟩ ![] b0 (constantI S0 32 0#32)))
      (addi idx (broadcastInDim ⟨1, ![M]⟩ ![] b0 (constantI S0 32 nWord))) idx)

/-- The in-range test of an index column, per row, laid along the C columns: 0 ≤ w ≤ maxWord, "and"-reduced over the unit axis. -/
def inRangeMask (maxWord : BitVec 32)
    (b01 : S0.BroadcastsInDim ⟨2, ![M, 1]⟩ (![] : Fin 0 → Fin 2))
    (b1 : S1.BroadcastsInDim S11 (![1] : Fin 1 → Fin 2))
    (b11 : S11.BroadcastsInDim ⟨2, ![M, 1]⟩ (![0, 1] : Fin 2 → Fin 2))
    (rt : (⟨2, ![M, 1]⟩ : Shape).ReducesTo [1] ⟨1, ![M]⟩) (h0 : 0 < S0.numel)
    (bc : (⟨1, ![M]⟩ : Shape).BroadcastsInDim ⟨2, ![M, C]⟩ (![0] : Fin 1 → Fin 2))
    (w : IVec ⟨2, ![M, 1]⟩ 32) : IVec ⟨2, ![M, C]⟩ 1 :=
  broadcastInDim ⟨2, ![M, C]⟩ ![0] bc
    (Host.reduce IntOp.andi
      (andi (cmpi .sge w (broadcastInDim ⟨2, ![M, 1]⟩ ![] b01 (constantI S0 32 0#32)))
            (cmpi .sle w (broadcastInDim ⟨2, ![M, 1]⟩ ![0, 1] b11 (broadcastInDim S11 ![1] b1 (constantI S1 32 maxWord)))))
      (constantI S0 1 1#1) rt h0)

/-- A constant array broadcast into any shape reads the constant everywhere. -/
theorem bcast_const {s t : Shape} (dims : Fin s.rank → Fin t.rank) (h : s.BroadcastsInDim t dims) {w : ℕ} (b : BitVec w)
    (j : t.Idx) : broadcastInDim t dims h (constantI s w b) j = b := rfl

/-- A word that is non-negative as a signed number is not below zero. -/
theorem cmpi_slt_zero_of_nonneg (a : BitVec 32) (h : 0 ≤ a.toInt) : IntOp.cmpi .slt a 0#32 = 0#1 := by
  have h0 : (0#32 : BitVec 32).toInt = 0 := by decide
  have hs : a.slt 0#32 = false := by
    simp only [BitVec.slt, h0, decide_eq_false_iff_not]; omega
  show BitVec.ofBool (a.slt 0#32) = 0#1
  rw [hs]; rfl

/-- A word that is non-negative as a signed number is at least zero. -/
theorem cmpi_sge_zero_of_nonneg (a : BitVec 32) (h : 0 ≤ a.toInt) : IntOp.cmpi .sge a 0#32 = 1#1 := by
  have h0 : (0#32 : BitVec 32).toInt = 0 := by decide
  have hs : (0#32 : BitVec 32).sle a = true := by
    simp only [BitVec.sle, h0, decide_eq_true_eq]; exact h
  show BitVec.ofBool ((0#32 : BitVec 32).sle a) = 1#1
  rw [hs]; rfl

/-- A signed comparison that holds of the values holds of the words. -/
theorem cmpi_sle_of_le (a b : BitVec 32) (h : a.toInt ≤ b.toInt) : IntOp.cmpi .sle a b = 1#1 := by
  have hs : a.sle b = true := by
    simp only [BitVec.sle, decide_eq_true_eq]; exact h
  show BitVec.ofBool (a.sle b) = 1#1
  rw [hs]; rfl

/-- Where every index is a row number, the wrapped index is the index itself. -/
theorem wrapCol_apply (nWord : BitVec 32) (b0 : S0.BroadcastsInDim ⟨1, ![M]⟩ (![] : Fin 0 → Fin 1))
    (bcol : (⟨1, ![M]⟩ : Shape).BroadcastsInDim ⟨2, ![M, 1]⟩ (![0] : Fin 1 → Fin 2))
    (idx : IVec ⟨1, ![M]⟩ 32) (p : Fin M) (hp : 0 ≤ (idx (ix1 p)).toInt) :
    wrapCol nWord b0 bcol idx (ix2 p (0 : Fin 1)) = idx (ix1 p) := by
  unfold wrapCol
  rw [LibUnitAxis.bcast_col_apply, select_apply]
  have hc : cmpi .slt idx (broadcastInDim ⟨1, ![M]⟩ ![] b0 (constantI S0 32 0#32)) (ix1 p) = 0#1 :=
    cmpi_slt_zero_of_nonneg (idx (ix1 p)) hp
  rw [hc, select_zero]

/-- Where every wrapped index lies in [0, maxWord], the mask is all ones. -/
theorem inRangeMask_eq_ones (maxWord : BitVec 32)
    (b01 : S0.BroadcastsInDim ⟨2, ![M, 1]⟩ (![] : Fin 0 → Fin 2))
    (b1 : S1.BroadcastsInDim S11 (![1] : Fin 1 → Fin 2))
    (b11 : S11.BroadcastsInDim ⟨2, ![M, 1]⟩ (![0, 1] : Fin 2 → Fin 2))
    (rt : (⟨2, ![M, 1]⟩ : Shape).ReducesTo [1] ⟨1, ![M]⟩) (h0 : 0 < S0.numel)
    (bc : (⟨1, ![M]⟩ : Shape).BroadcastsInDim ⟨2, ![M, C]⟩ (![0] : Fin 1 → Fin 2))
    (w : IVec ⟨2, ![M, 1]⟩ 32)
    (hw : ∀ p : Fin M, 0 ≤ (w (ix2 p (0 : Fin 1))).toInt ∧ (w (ix2 p (0 : Fin 1))).toInt ≤ maxWord.toInt) :
    inRangeMask (C := C) maxWord b01 b1 b11 rt h0 bc w = fun _ => 1#1 := by
  funext j
  obtain ⟨p, q, rfl⟩ : ∃ (p : Fin M) (q : Fin C), j = ix2 p q := ⟨j 0, j 1, eq_ix2 j⟩
  unfold inRangeMask
  rw [LibUnitAxis.bcast_cols_apply,
    LibUnitAxis.reduce_andi_unit_apply _ (constantI S0 1 1#1) rt h0 (fun _ => rfl) p]
  show IntOp.andi (IntOp.cmpi .sge (w (ix2 p (0 : Fin 1))) 0#32) (IntOp.cmpi .sle (w (ix2 p (0 : Fin 1))) maxWord) = 1#1
  rw [cmpi_sge_zero_of_nonneg _ (hw p).1, cmpi_sle_of_le _ _ (hw p).2]
  rfl

/-- The take in fill mode: where every index lies in [0, maxWord] the filled select is its first branch, whatever the
    gathered array g and the fill f are. -/
theorem take_fill_eq {α : Type} (nWord maxWord : BitVec 32)
    (b0 : S0.BroadcastsInDim ⟨1, ![M]⟩ (![] : Fin 0 → Fin 1))
    (bcol : (⟨1, ![M]⟩ : Shape).BroadcastsInDim ⟨2, ![M, 1]⟩ (![0] : Fin 1 → Fin 2))
    (b01 : S0.BroadcastsInDim ⟨2, ![M, 1]⟩ (![] : Fin 0 → Fin 2))
    (b1 : S1.BroadcastsInDim S11 (![1] : Fin 1 → Fin 2))
    (b11 : S11.BroadcastsInDim ⟨2, ![M, 1]⟩ (![0, 1] : Fin 2 → Fin 2))
    (rt : (⟨2, ![M, 1]⟩ : Shape).ReducesTo [1] ⟨1, ![M]⟩) (h0 : 0 < S0.numel)
    (bc : (⟨1, ![M]⟩ : Shape).BroadcastsInDim ⟨2, ![M, C]⟩ (![0] : Fin 1 → Fin 2))
    (idx : IVec ⟨1, ![M]⟩ 32)
    (hidx : ∀ p : Fin M, 0 ≤ (idx (ix1 p)).toInt ∧ (idx (ix1 p)).toInt ≤ maxWord.toInt)
    (g f : (⟨2, ![M, C]⟩ : Shape).Idx → α) :
    select (inRangeMask (C := C) maxWord b01 b1 b11 rt h0 bc (wrapCol nWord b0 bcol idx)) g f = g := by
  have hw : ∀ p : Fin M, 0 ≤ (wrapCol nWord b0 bcol idx (ix2 p (0 : Fin 1))).toInt
      ∧ (wrapCol nWord b0 bcol idx (ix2 p (0 : Fin 1))).toInt ≤ maxWord.toInt := fun p => by
    rw [wrapCol_apply nWord b0 bcol idx p (hidx p).1]; exact hidx p
  rw [inRangeMask_eq_ones maxWord b01 b1 b11 rt h0 bc _ hw]
  funext j
  exact select_one (g j) (f j)

end Cert.LibTakeFill

end
-- ==== Proof.Stretches.lean ====
/-
  The host stretches of the kernel's program, read at a buffer.

  Between the launch and the first kernel the program cuts the hidden weights into their head half and their dependent
  half, transposes each and changes the formats; between the two kernels it takes rows of each projected table at the
  arcs' indices (jnp.take in fill mode) and lays the two biases as a row and as a 1×1 array; after the second kernel it
  drops the score column's unit axis. Each stretch is a fold over the buffers from whatever they hold when it starts
  (V); here is what it leaves in the buffers the kernels and the result read.
-/
import proofs.«401059_j22050362098343_2_alg».proof.Proof.Gen.KernelIdeal.Launch
import proofs.«401059_j22050362098343_2_alg».proof.Proof.LibTakeFill
import Idealize.ShloMosaic.Lib.StableHlo.Run

set_option maxRecDepth 16384

noncomputable section

namespace Cert.ArcScore.Stretch

open Cert.KernelIdeal Cert.KernelIdeal.Gen
open Idealize.ShloMosaic Idealize.ShloMosaic.TcCoe Idealize.ShloMosaic.StableHlo Idealize.SL.Sem

variable {F : FTy → Type} [FloatOps F]

/-- One half of the hidden weights, as the first kernel gets it: columns off .. off + 767 of W, transposed. -/
abbrev halfT (W : FVec F S512x1536 .f32) (off : Nat) (h : S512x1536.Slices ![0, off] S512x768) : FVec F S768x512 .bf16 :=
  truncf .bf16 (transpose S768x512 [1, 0] (extractStridedSlice S512x768 ![0, off] W h) transposes_S512x768_S768x512_1_0)
    bitsLt_bf16_f32

/-- jnp.take of rows of a projected table [4096, 512] at 262144 indices, in fill mode: the gather at the wrapped indices
    where the wrapped index lies in [0, 4095], the fill word elsewhere. -/
abbrev takeFill (x : FVec F S4096x512 .f32) (idx : IVec S262144 32) : FVec F S262144x512 .f32 :=
  select
    (LibTakeFill.inRangeMask (C := 512) 4095#32 bcast_S_S262144x1 bcast_S1_S1x1_1 bcast_S1x1_S262144x1_0_1
      reducesTo_S262144x1_S262144_d1 h_S_ bcast_S262144_S262144x512_0
      (LibTakeFill.wrapCol 4096#32 bcast_S_S262144 bcast_S262144_S262144x1_0 idx))
    (Host.gather gather_S4096x512_S262144x1_S262144x512_1_0_n_n_0_1_1512 x
      (LibTakeFill.wrapCol 4096#32 bcast_S_S262144 bcast_S262144_S262144x1_0 idx))
    (broadcastInDim S262144x512 ![] bcast_S_S262144x512 (constant S_ .f32 0x7FC00000#32))

variable (V : Valuation τ sig (Elt F))

/-! ## Before the first kernel -/

theorem emb_in : StableHlo.after hostOps0 V (Proc.devRef .tc main_v4)
    = (truncf .bf16 (V (Proc.devRef .tc main_arg0) : FVec F S4096x768 .f32) bitsLt_bf16_f32 : FVec F S4096x768 .bf16) := by
  after_results_simp

theorem head_half_in : StableHlo.after hostOps0 V (Proc.devRef .tc main_v5)
    = halfT (V (Proc.devRef .tc main_arg1)) 0 slices_S512x1536_S512x768_0_0 := by
  after_results_simp

theorem dep_half_in : StableHlo.after hostOps0 V (Proc.devRef .tc main_v6)
    = halfT (V (Proc.devRef .tc main_arg1)) 768 slices_S512x1536_S512x768_0_768 := by
  after_results_simp

theorem first_keeps_arg2 : StableHlo.after hostOps0 V (Proc.devRef .tc main_arg2) = V (Proc.devRef .tc main_arg2) := by
  after_results_simp
theorem first_keeps_arg3 : StableHlo.after hostOps0 V (Proc.devRef .tc main_arg3) = V (Proc.devRef .tc main_arg3) := by
  after_results_simp
theorem first_keeps_arg4 : StableHlo.after hostOps0 V (Proc.devRef .tc main_arg4) = V (Proc.devRef .tc main_arg4) := by
  after_results_simp
theorem first_keeps_arg5 : StableHlo.after hostOps0 V (Proc.devRef .tc main_arg5) = V (Proc.devRef .tc main_arg5) := by
  after_results_simp
theorem first_keeps_arg6 : StableHlo.after hostOps0 V (Proc.devRef .tc main_arg6) = V (Proc.devRef .tc main_arg6) := by
  after_results_simp

/-! ## Between the kernels -/

theorem head_take : StableHlo.after hostOps1 V (Proc.devRef .tc main_v8)
    = takeFill (V (Proc.devRef .tc main_v7_0)) (V (Proc.devRef .tc main_arg5)) := by
  unfold takeFill LibTakeFill.inRangeMask LibTakeFill.wrapCol
  after_results_simp
  simp only [TRef.toBuf, TRef.ofBuf, cast_eq]

theorem head_take_keeps_dep_table : StableHlo.after hostOps1 V (Proc.devRef .tc main_v7_1) = V (Proc.devRef .tc main_v7_1) := by
  after_results_simp
theorem head_take_keeps_dep_idx : StableHlo.after hostOps1 V (Proc.devRef .tc main_arg6) = V (Proc.devRef .tc main_arg6) := by
  after_results_simp
theorem head_take_keeps_arg2 : StableHlo.after hostOps1 V (Proc.devRef .tc main_arg2) = V (Proc.devRef .tc main_arg2) := by
  after_results_simp
theorem head_take_keeps_arg3 : StableHlo.after hostOps1 V (Proc.devRef .tc main_arg3) = V (Proc.devRef .tc main_arg3) := by
  after_results_simp
theorem head_take_keeps_arg4 : StableHlo.after hostOps1 V (Proc.devRef .tc main_arg4) = V (Proc.devRef .tc main_arg4) := by
  after_results_simp

theorem dep_take : StableHlo.after hostOps1_1 V (Proc.devRef .tc main_v9)
    = takeFill (V (Proc.devRef .tc main_v7_1)) (V (Proc.devRef .tc main_arg6)) := by
  unfold takeFill LibTakeFill.inRangeMask LibTakeFill.wrapCol
  after_results_simp
  simp only [TRef.toBuf, TRef.ofBuf, cast_eq]

theorem dep_take_keeps_head : StableHlo.after hostOps1_1 V (Proc.devRef .tc main_v8) = V (Proc.devRef .tc main_v8) := by
  after_results_simp
theorem dep_take_keeps_arg2 : StableHlo.after hostOps1_1 V (Proc.devRef .tc main_arg2) = V (Proc.devRef .tc main_arg2) := by
  after_results_simp
theorem dep_take_keeps_arg3 : StableHlo.after hostOps1_1 V (Proc.devRef .tc main_arg3) = V (Proc.devRef .tc main_arg3) := by
  after_results_simp
theorem dep_take_keeps_arg4 : StableHlo.after hostOps1_1 V (Proc.devRef .tc main_arg4) = V (Proc.devRef .tc main_arg4) := by
  after_results_simp

theorem bias_row : StableHlo.after hostOps1_2 V (Proc.devRef .tc main_v10)
    = (shapeCast S1x512 (V (Proc.devRef .tc main_arg2) : FVec F S512 .f32) shapeCasts_S512_S1x512 : FVec F S1x512 .f32) := by
  after_results_simp
  rfl

theorem out_bias_cell : StableHlo.after hostOps1_2 V (Proc.devRef .tc main_v11)
    = (shapeCast S1x1 (V (Proc.devRef .tc main_arg4) : FVec F S1 .f32) shapeCasts_S1_S1x1 : FVec F S1x1 .f32) := by
  after_results_simp
  rfl

theorem biases_keep_head : StableHlo.after hostOps1_2 V (Proc.devRef .tc main_v8) = V (Proc.devRef .tc main_v8) := by
  after_results_simp
theorem biases_keep_dep : StableHlo.after hostOps1_2 V (Proc.devRef .tc main_v9) = V (Proc.devRef .tc main_v9) := by
  after_results_simp
theorem biases_keep_arg3 : StableHlo.after hostOps1_2 V (Proc.devRef .tc main_arg3) = V (Proc.devRef .tc main_arg3) := by
  after_results_simp

/-! ## After the second kernel -/

theorem result_flat : StableHlo.after hostOps2 V (Proc.devRef .tc main_v13)
    = (shapeCast S262144 (V (Proc.devRef .tc main_v12) : FVec F S262144x1 .f32) shapeCasts_S262144x1_S262144 : FVec F S262144 .f32) := by
  after_results_simp
  rfl

end Cert.ArcScore.Stretch

end
-- ==== Proof.LibColumn.lean ====
/-
  A column kept by a row reduction (`keepdims=True`), read at an index: a vector of length a cast to an [a, 1] column
  reads, at (i, u), the vector at i; the column broadcast along the rows of an [a, b] array reads, at (p, c), its entry
  at row p. Companions of the library's leading-unit-axis casts and of its one-row broadcast.
-/
import Idealize.ShloMosaic.Lib.ValueLayout

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.ScoreSpec.lean ====
/-
  The arc scorer as one function of the argument arrays.

  Token r has an embedding row emb[r, ·] of 768 entries; the hidden layer's weight matrix W is [512, 1536], its first 768
  columns acting on an arc's head token and its last 768 on the arc's dependent token. Hidden unit d of an arc whose head
  is row rh and whose dependent is row rd is

      tanh ( (∑ₖ emb[rh, k] · W[d, k]  +  ∑ₖ emb[rd, k] · W[d, 768 + k])  +  b[d] ),

  and the arc's score is ∑_d hidden_d · wout[0, d], plus the output bias. A row is named by a 32-bit start index read
  as a signed integer and clamped into [0, 4095], which is how a gather of rows reads it. Every sum is a finite sum of
  extended reals in the order of its index; no law of arithmetic is used to state it.
-/
import Idealize.ShloMosaic.PureOps.Ideal
import Idealize.ShloMosaic.Lib.ValueIdx

noncomputable section

open scoped BigOperators

namespace Cert.ArcScore

open Idealize.ShloMosaic Idealize.ShloMosaic.ValueIdx

abbrev Tab : Shape := ⟨2, ![4096, 768]⟩
abbrev Wts : Shape := ⟨2, ![512, 1536]⟩
abbrev Hid : Shape := ⟨1, ![512]⟩
abbrev Out : Shape := ⟨2, ![1, 512]⟩
abbrev One : Shape := ⟨1, ![1]⟩
abbrev Col : Shape := ⟨2, ![262144, 1]⟩
abbrev Arcs : Shape := ⟨1, ![262144]⟩

/-- The token row a start index names: the word as a signed integer, clamped into [0, 4095]. -/
def rowOf (w : BitVec 32) : Fin 4096 := ⟨min w.toInt.toNat (4096 - 1), by omega⟩

/-- Hidden unit d's projection of token row r through the 768 weight columns that start at column off. -/
def proj (emb : Tab.Idx → EReal) (W : Wts.Idx → EReal) (off : Nat) (hoff : off + 768 ≤ 1536) (r : Fin 4096) (d : Fin 512) :
    EReal :=
  ∑ k : Fin 768, emb (ix2 r k) * W (ix2 d (⟨off + k.val, by omega⟩ : Fin 1536))

/-- The hidden layer of one arc, from the head's projection value and the dependent's. -/
def hidden (ph pd : Fin 512 → EReal) (bh : Hid.Idx → EReal) (d : Fin 512) : EReal :=
  Ideal.tanh ((ph d + pd d) + bh (ix1 d))

/-- One arc's score from the two projected rows: the hidden layer against the output weights, plus the output bias. -/
def arcOf (ph pd : Fin 512 → EReal) (bh : Hid.Idx → EReal) (wout : Out.Idx → EReal) (bo : One.Idx → EReal) : EReal :=
  (∑ d : Fin 512, hidden ph pd bh d * wout (ix2 (0 : Fin 1) d)) + bo (ix1 (0 : Fin 1))

/-- Every arc's score: arc e takes its head row from the start-index column wh and its dependent row from wd. -/
def scores (emb : Tab.Idx → EReal) (W : Wts.Idx → EReal) (bh : Hid.Idx → EReal) (wout : Out.Idx → EReal)
    (bo : One.Idx → EReal) (wh wd : Col.Idx → BitVec 32) : Arcs.Idx → EReal := fun i =>
  arcOf (proj emb W 0 (by omega) (rowOf (wh (ix2 (⟨(i 0).val, (i 0).isLt⟩ : Fin 262144) (0 : Fin 1)))))
    (proj emb W 768 (by omega) (rowOf (wd (ix2 (⟨(i 0).val, (i 0).isLt⟩ : Fin 262144) (0 : Fin 1))))) bh wout bo

end Cert.ArcScore

end
-- ==== Proof.ScoreBlock.lean ====
/-
  One block of arcs scored: the second kernel's stored value, read at a row.

  The body adds the block of gathered head projections to the block of gathered dependent projections, adds the hidden
  bias along the rows, takes tanh, multiplies by the output weights along the rows, sums each row over its 512 lanes and
  adds the output bias. At row j of the block that is the arc score of the two projected rows x0[j, ·] and x2[j, ·].
-/
import proofs.«401059_j22050362098343_2_alg».proof.Proof.Gen.KernelIdeal.Skeleton
import proofs.«401059_j22050362098343_2_alg».proof.Proof.LibColumn
import proofs.«401059_j22050362098343_2_alg».proof.Proof.ScoreSpec
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.ArcScore

open Cert.KernelIdeal Cert.KernelIdeal.Gen Idealize.ShloMosaic Idealize.ShloMosaic.ValueIdx

/-- In a [2048, 512] block, the index over row j with lane d put back is (j, d). -/
theorem lane_lift (j : Fin 2048) (d : Fin 512) :
    (reduces_S2048x512_S2048 : S2048x512.Reduces [1] S2048).lift (ix1 j) d = ix2 j d :=
  funext fun c => Fin.ext (match c with | ⟨0, _⟩ => rfl | ⟨1, _⟩ => rfl)

/-- THE BLOCK'S SCORE AT A ROW. Row j of what the body stores is the arc score of the block's two projected rows, the
    hidden bias being the one row of x5 and the output weights the one row of x10. -/
theorem pay_row (x0 x2 : FVec Ideal S2048x512 .f32) (x5 x10 : FVec Ideal S1x512 .f32) (x15 : FVec Ideal S1x1 .f32)
    (j : Fin 2048) :
    k1_pay1 (F := Ideal) x0 x2 x5 x10 x15 (ix2 j (0 : Fin 1))
      = (∑ d : Fin 512, Ideal.tanh ((x0 (ix2 j d) + x2 (ix2 j d)) + x5 (ix2 (0 : Fin 1) d)) * x10 (ix2 (0 : Fin 1) d))
        + x15 (ix2 (0 : Fin 1) (0 : Fin 1)) := by
  unfold k1_pay1
  refine (addf_apply _ _ _).trans ?_
  refine congrArg₂ (· + ·) ?_ ?_
  · refine (LibColumn.shapeCast_a_a1_apply _ shapeCasts_S2048_S2048x1 j (0 : Fin 1)).trans ?_
    refine (Ideal.multiReduction_add_single _ 0x00000000#32 reduces_S2048x512_S2048 (.inl rfl) rfl (ix1 j)).trans ?_
    refine Finset.sum_congr rfl fun d _ => ?_
    rw [lane_lift j d]
    refine (mulf_apply _ _ _).trans ?_
    refine congrArg₂ (· * ·) ?_ ?_
    · show Ideal.tanh _ = Ideal.tanh _
      refine congrArg Ideal.tanh ?_
      refine (addf_apply _ _ _).trans ?_
      refine congrArg₂ (· + ·) ?_ ?_
      · refine (addf_apply _ _ _).trans ?_
        rw [shapeCast_self, shapeCast_self]
      · rw [shapeCast_self]
        exact broadcastTo_1b_ab_apply x5 broadcasts_S1x512_S2048x512 j d
    · exact broadcastTo_1b_ab_apply x10 broadcasts_S1x512_S2048x512 j d
  · rw [shapeCast_self]
    exact broadcastTo_1b_ab_apply x15 broadcasts_S1x1_S2048x1 j (0 : Fin 1)

end Cert.ArcScore

end
-- ==== Proof.Column.lean ====
/-
  The score column: what the second kernel leaves in its output array.

  The second kernel runs at 128 grid points. At point t its two large inputs are rows 2048·t … 2048·t + 2047 of the two
  gathered arrays, its three small inputs are whole (the bias row, the output weights, the output bias), and its output
  block is rows 2048·t … 2048·t + 2047 of the [262144, 1] score column. The 128 output blocks tile the column, and row
  2048·t + j of it is the arc score of row 2048·t + j of the two gathered arrays. So the column after the region is one
  function of the arrays the region found: row e is the arc score of the gathered rows e.
-/
import proofs.«401059_j22050362098343_2_alg».proof.Proof.Gen.KernelIdeal.Frame
import proofs.«401059_j22050362098343_2_alg».proof.Proof.ScoreBlock
import Idealize.ShloMosaic.Lib.Pipeline.Value

set_option maxRecDepth 16384

noncomputable section

open scoped BigOperators

namespace Cert.ArcScore.Column

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero_off : (![0, 0] : Fin 2 → Nat) = fun _ => 0 := funext fun a => by fin_cases a <;> rfl

/-- The score column as one function of the two gathered arrays x8, x9, the bias row r10, the output weights r3 and
    the output bias o11: row e is the arc score of rows e of x8 and x9. -/
def column (x8 x9 : FVec Ideal S262144x512 .f32) (r10 r3 : FVec Ideal S1x512 .f32) (o11 : FVec Ideal S1x1 .f32) :
    FVec Ideal S262144x1 .f32 := fun i =>
  (∑ d : Fin 512, Ideal.tanh ((x8 (ix2 (⟨(i 0).val, (i 0).isLt⟩ : Fin 262144) d)
        + x9 (ix2 (⟨(i 0).val, (i 0).isLt⟩ : Fin 262144) d)) + r10 (ix2 (0 : Fin 1) d)) * r3 (ix2 (0 : Fin 1) d))
    + o11 (ix2 (0 : Fin 1) (0 : Fin 1))

/-- The printed index maps over the 128 points: the two gathered arrays and the score column move by one block of rows
    per point, the three small inputs stay at their one block. -/
theorem block_index : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- WHAT POINT t WRITES BACK is block t of the score column of the arrays the region found. -/
theorem col_flushed (c : Dev nD) (t : Fin cfg1.N) :
    (dat1 V c).flushed 5 t = ((cfg1.win 5).blk t).view.read (Elt Ideal)
      (column (V c main_v8) (V c main_v9) (V c main_v10) (V c main_arg3) (V c main_v11)) := by
  show (cfg1.win 5).cut (grid1.coords t) ((dat1 V c).after 5 t) = _
  rw [after1_5]
  unfold out1_5
  rw [View.canon_unit_zero zero_off]
  simp only [View.ld_unit_zero (S := S2048x512) zero_off, View.ld_unit_zero (S := S1x512) zero_off,
    View.ld_unit_zero (S := S1x1) zero_off]
  obtain ⟨a0, a1, b0, b1, c0, c1, d0, d1, e0, e1, f0, f1⟩ := block_index t
  funext (j : S2048x1.Idx)
  obtain ⟨p, q, rfl⟩ : ∃ (p : Fin 2048) (q : Fin 1), j = ix2 p q := ⟨j 0, j 1, eq_ix2 j⟩
  obtain rfl : q = 0 := Subsingleton.elim _ _
  show k1_pay1 (F := Ideal) (iblk1 V c 0 t) (iblk1 V c 1 t) (iblk1 V c 2 t) (iblk1 V c 3 t) (iblk1 V c 4 t) (ix2 p (0 : Fin 1))
    = column (V c main_v8) (V c main_v9) (V c main_v10) (V c main_arg3) (V c main_v11)
        (((cfg1.win 5).blk t).view.emb (ix2 p (0 : Fin 1)))
  refine (pay_row (iblk1 V c 0 t) (iblk1 V c 1 t) (iblk1 V c 2 t) (iblk1 V c 3 t) (iblk1 V c 4 t) p).trans ?_
  unfold column
  refine congrArg₂ (· + ·) (Finset.sum_congr rfl fun d _ => ?_) ?_
  · refine congrArg₂ (· * ·) (congrArg Ideal.tanh (congrArg₂ (· + ·) (congrArg₂ (· + ·) ?_ ?_) ?_)) ?_
    · show V c main_v8 (((cfg1.win 0).blk t).view.emb (ix2 p d)) = V c main_v8 (ix2 _ d)
      refine congrArg (V c main_v8) (funext fun a => Fin.ext ?_)
      match a with
      | ⟨0, _⟩ =>
        show win1_0.index t (0 : Fin 2) * 2048 + 1 * p.val = win1_5.index t (0 : Fin 2) * 2048 + 1 * p.val
        omega
      | ⟨1, _⟩ => show win1_0.index t (1 : Fin 2) * 512 + 1 * d.val = d.val; omega
    · show V c main_v9 (((cfg1.win 1).blk t).view.emb (ix2 p d)) = V c main_v9 (ix2 _ d)
      refine congrArg (V c main_v9) (funext fun a => Fin.ext ?_)
      match a with
      | ⟨0, _⟩ =>
        show win1_1.index t (0 : Fin 2) * 2048 + 1 * p.val = win1_5.index t (0 : Fin 2) * 2048 + 1 * p.val
        omega
      | ⟨1, _⟩ => show win1_1.index t (1 : Fin 2) * 512 + 1 * d.val = d.val; omega
    · show V c main_v10 (((cfg1.win 2).blk t).view.emb (ix2 (0 : Fin 1) d)) = V c main_v10 (ix2 (0 : Fin 1) d)
      refine congrArg (V c main_v10) (funext fun a => Fin.ext ?_)
      match a with
      | ⟨0, _⟩ => show win1_2.index t (0 : Fin 2) * 1 + 1 * 0 = 0; omega
      | ⟨1, _⟩ => show win1_2.index t (1 : Fin 2) * 512 + 1 * d.val = d.val; omega
    · show V c main_arg3 (((cfg1.win 3).blk t).view.emb (ix2 (0 : Fin 1) d)) = V c main_arg3 (ix2 (0 : Fin 1) d)
      refine congrArg (V c main_arg3) (funext fun a => Fin.ext ?_)
      match a with
      | ⟨0, _⟩ => show win1_3.index t (0 : Fin 2) * 1 + 1 * 0 = 0; omega
      | ⟨1, _⟩ => show win1_3.index t (1 : Fin 2) * 512 + 1 * d.val = d.val; omega
  · show V c main_v11 (((cfg1.win 4).blk t).view.emb (ix2 (0 : Fin 1) (0 : Fin 1))) = V c main_v11 (ix2 (0 : Fin 1) (0 : Fin 1))
    refine congrArg (V c main_v11) (funext fun a => Fin.ext ?_)
    match a with
    | ⟨0, _⟩ => show win1_4.index t (0 : Fin 2) * 1 + 1 * 0 = 0; omega
    | ⟨1, _⟩ => show win1_4.index t (1 : Fin 2) * 1 + 1 * 0 = 0; omega

/-- An index of the score column is in point t's block iff each coordinate is in the block's range on its axis. -/
theorem col_mem (t : Fin cfg1.N) (i : S262144x1.Idx) :
    i ∈ ((cfg1.win 5).blk t).view.set ↔ ∀ a : Fin 2, win1_5.index t a * S2048x1.size a ≤ (i a).val
      ∧ (i a).val < win1_5.index t a * S2048x1.size a + S2048x1.size a := by
  show i ∈ ((View.whole main_v12).slice (win1_5.rect t)).set ↔ _
  rw [View.set_slice_whole, Rect.mem_set_unit]
  exact Iff.rfl

/-- Every row of the score column is in the block of the point numbered by its row over 2048. -/
theorem col_cover (i : S262144x1.Idx) :
    ∃ t : Fin cfg1.N, (cfg1.win 5).flush t = true ∧ i ∈ ((cfg1.win 5).blk t).view.set := by
  have h0 : (i 0).val < 262144 := (i 0).isLt
  have h1 : (i 1).val < 1 := (i 1).isLt
  have hN : (i 0).val / 2048 < cfg1.N := by show _ < grid1.N; rw [N_1]; omega
  refine ⟨⟨(i 0).val / 2048, hN⟩, flush1_5 _, ?_⟩
  rw [col_mem]
  obtain ⟨-, -, -, -, -, -, -, -, -, -, f0, f1⟩ := block_index ⟨(i 0).val / 2048, hN⟩
  have f0' : win1_5.index ⟨(i 0).val / 2048, hN⟩ (0 : Fin 2) = (i 0).val / 2048 := f0
  intro a
  match a with
  | ⟨0, _⟩ =>
    show win1_5.index ⟨(i 0).val / 2048, hN⟩ (0 : Fin 2) * 2048 ≤ (i 0).val
      ∧ (i 0).val < win1_5.index ⟨(i 0).val / 2048, hN⟩ (0 : Fin 2) * 2048 + 2048
    omega
  | ⟨1, _⟩ =>
    show win1_5.index ⟨(i 0).val / 2048, hN⟩ (1 : Fin 2) * 1 ≤ (i 1).val
      ∧ (i 1).val < win1_5.index ⟨(i 0).val / 2048, hN⟩ (1 : Fin 2) * 1 + 1
    omega

/-- THE SCORE COLUMN after the second region, as one function of the arrays the region found. -/
theorem column_eq (c : Dev nD) :
    (dat1 V c).arrAt 5 cfg1.N = column (V c main_v8) (V c main_v9) (V c main_v10) (V c main_arg3) (V c main_v11) :=
  (dat1 V c).arrAt_eq_of_cover 5 _ (fun t _ => col_flushed V c t) col_cover

end Cert.ArcScore.Column

end
-- ==== Proof.LibTakeWrap.lean ====
/-
  A take of rows in fill mode whose indices may be negative.

  jnp.take wraps a negative index once (idx + N where idx < 0) before it tests the range [0, N - 1] and fills the rows
  that fail the test. An index in [-N, N), read as a signed 32-bit integer, wraps into [0, N - 1]: a negative one gains N
  and N is far from the word's end, so the sum does not overflow; a non-negative one is left alone. So where every index
  lies in [-N, N) no row is filled, and the take is the plain gather at the wrapped indices.
-/
import proofs.«401059_j22050362098343_2_alg».proof.Proof.LibTakeFill
import Idealize.ShloMosaic.Lib.Affine

noncomputable section

namespace Cert.LibTakeWrap

open Idealize.ShloMosaic Idealize.ShloMosaic.ValueIdx Cert.LibTakeFill

variable {C M : ℕ}

/-- A signed word in [-n, n), n at most 2^30, wrapped once lies in [0, n - 1]. -/
theorem wrap_word_range (a nWord : BitVec 32) (hn1 : nWord.toInt ≤ 2 ^ 30)
    (hlo : -nWord.toInt ≤ a.toInt) (hhi : a.toInt < nWord.toInt) :
    0 ≤ (Scalar.select (IntOp.cmpi .slt a 0#32) (IntOp.addi a nWord) a).toInt
      ∧ (Scalar.select (IntOp.cmpi .slt a 0#32) (IntOp.addi a nWord) a).toInt ≤ nWord.toInt - 1 := by
  have h0 : (0#32 : BitVec 32).toInt = 0 := by decide
  by_cases hneg : a.toInt < 0
  · have hc : IntOp.cmpi .slt a 0#32 = 1#1 := IntOp.cmpi_slt.2 (by rw [h0]; exact hneg)
    rw [hc, select_one]
    have hadd : (IntOp.addi a nWord).toInt = a.toInt + nWord.toInt := by
      show (a + nWord).toInt = _
      rw [BitVec.toInt_add, Int.bmod_def]
      have e : ((2 : Nat) ^ 32) = 4294967296 := by norm_num
      have e30 : ((2 : Int) ^ 30) = 1073741824 := by norm_num
      rw [e30] at hn1
      rw [e]
      split <;> omega
    rw [hadd]
    have e30 : ((2 : Int) ^ 30) = 1073741824 := by norm_num
    rw [e30] at hn1
    constructor <;> omega
  · have hc : IntOp.cmpi .slt a 0#32 = 0#1 := cmpi_slt_zero_of_nonneg a (by omega)
    rw [hc, select_zero]
    constructor <;> omega

/-- The wrapped index column at row p: the index plus n where it is negative, the index itself otherwise. -/
theorem wrapCol_eq (nWord : BitVec 32) (b0 : S0.BroadcastsInDim ⟨1, ![M]⟩ (![] : Fin 0 → Fin 1))
    (bcol : (⟨1, ![M]⟩ : Shape).BroadcastsInDim ⟨2, ![M, 1]⟩ (![0] : Fin 1 → Fin 2))
    (idx : IVec ⟨1, ![M]⟩ 32) (p : Fin M) :
    wrapCol nWord b0 bcol idx (ix2 p (0 : Fin 1))
      = Scalar.select (IntOp.cmpi .slt (idx (ix1 p)) 0#32) (IntOp.addi (idx (ix1 p)) nWord) (idx (ix1 p)) := by
  unfold wrapCol
  rw [LibUnitAxis.bcast_col_apply, select_apply]
  rfl

/-- THE TAKE IN FILL MODE, INDICES IN [-N, N): the filled select is its gathered branch, whatever the gathered array g
    and the fill f are. (nWord is N as a word, maxWord is N - 1.) -/
theorem take_fill_eq_of_signed {α : Type} (nWord maxWord : BitVec 32) (hn1 : nWord.toInt ≤ 2 ^ 30)
    (hmax : maxWord.toInt = nWord.toInt - 1)
    (b0 : S0.BroadcastsInDim ⟨1, ![M]⟩ (![] : Fin 0 → Fin 1))
    (bcol : (⟨1, ![M]⟩ : Shape).BroadcastsInDim ⟨2, ![M, 1]⟩ (![0] : Fin 1 → Fin 2))
    (b01 : S0.BroadcastsInDim ⟨2, ![M, 1]⟩ (![] : Fin 0 → Fin 2))
    (b1 : S1.BroadcastsInDim S11 (![1] : Fin 1 → Fin 2))
    (b11 : S11.BroadcastsInDim ⟨2, ![M, 1]⟩ (![0, 1] : Fin 2 → Fin 2))
    (rt : (⟨2, ![M, 1]⟩ : Shape).ReducesTo [1] ⟨1, ![M]⟩) (h0 : 0 < S0.numel)
    (bc : (⟨1, ![M]⟩ : Shape).BroadcastsInDim ⟨2, ![M, C]⟩ (![0] : Fin 1 → Fin 2))
    (idx : IVec ⟨1, ![M]⟩ 32)
    (hidx : ∀ p : Fin M, -nWord.toInt ≤ (idx (ix1 p)).toInt ∧ (idx (ix1 p)).toInt < nWord.toInt)
    (g f : (⟨2, ![M, C]⟩ : Shape).Idx → α) :
    select (inRangeMask (C := C) maxWord b01 b1 b11 rt h0 bc (wrapCol nWord b0 bcol idx)) g f = g := by
  have hw : ∀ p : Fin M, 0 ≤ (wrapCol nWord b0 bcol idx (ix2 p (0 : Fin 1))).toInt
      ∧ (wrapCol nWord b0 bcol idx (ix2 p (0 : Fin 1))).toInt ≤ maxWord.toInt := fun p => by
    rw [wrapCol_eq nWord b0 bcol idx p, hmax]
    exact wrap_word_range _ nWord hn1 (hidx p).1 (hidx p).2
  rw [inRangeMask_eq_ones maxWord b01 b1 b11 rt h0 bc _ hw]
  funext j
  exact select_one (g j) (f j)

end Cert.LibTakeWrap

end
-- ==== Proof.LibTakeRows.lean ====
/-
  A take of rows read at an index.

  A gather of an operand [R, C] at a column [M, 1] of start indices, whose start-indexed row axis is collapsed and whose
  column axis is the one offset axis, reads at (p, q) the operand's row named by start index p — read as a signed
  integer and clamped into [0, R − 1] — at column q.
-/
import Idealize.ShloMosaic.Lib.ValueIdx
import Idealize.ShloMosaic.Lib.Pipeline.Value

noncomputable section

namespace Cert.TakeRows

open Idealize.ShloMosaic Idealize.ShloMosaic.ValueIdx

variable {α : Type}

/-- The dimension numbers of a take of rows, opened: operand [R, C], a column [M, 1] of start indices, result [M, C];
    the rows are start-indexed and collapsed, the columns are the one offset axis. The start indices' batching axes and
    the slice sizes stay as the record has them. -/
abbrev takeRowsDims {R C M : Nat} (sb : List (Fin 2)) (ss : Fin 2 → Nat)
    (wf : GatherDims.WF ⟨2, ![R, C]⟩ ⟨2, ![M, 1]⟩ ⟨2, ![M, C]⟩ [1] [0] [] [0] sb 1 ss) :
    GatherDims ⟨2, ![R, C]⟩ ⟨2, ![M, 1]⟩ ⟨2, ![M, C]⟩ where
  offsetDims := [1]
  collapsedSliceDims := [0]
  operandBatchingDims := []
  startIndicesBatchingDims := sb
  startIndexMap := [0]
  indexVectorDim := 1
  sliceSizes := ss
  wf := wf

/-- On the row axis the operand coordinate of result (p, q) is start index p, read signed and clamped to R − 1 (the slice
    size on a collapsed axis is one); no batching, no offset. -/
theorem takeRows_axis0 {R C M : Nat} (sb : List (Fin 2)) (ss : Fin 2 → Nat)
    (wf : GatherDims.WF ⟨2, ![R, C]⟩ ⟨2, ![M, 1]⟩ ⟨2, ![M, C]⟩ [1] [0] [] [0] sb 1 ss)
    (idx : IVec ⟨2, ![M, 1]⟩ 32) (p : Fin M) (q : Fin C) :
    (takeRowsDims sb ss wf).start (ix2 p q) idx (0 : Fin 2) + (takeRowsDims sb ss wf).batchCoord (ix2 p q) (0 : Fin 2)
        + (takeRowsDims sb ss wf).offCoord (ix2 p q) (0 : Fin 2)
      = min (idx (ix2 p (0 : Fin 1))).toInt.toNat (R - 1) := by
  have hm : (0 : Fin 2) ∈ (takeRowsDims sb ss wf).startIndexMap := by
    show (0 : Fin 2) ∈ ([0] : List (Fin 2)); decide
  have hsl : ss 0 = 1 := (takeRowsDims sb ss wf).slice_collapsed 0 (by show (0 : Fin 2) ∈ ([0] : List (Fin 2)); decide)
  rw [GatherDims.batchCoord_eq_zero _ _ _ List.not_mem_nil,
    GatherDims.offCoord_eq_zero _ _ _ (fun h => ((GatherDims.mem_sKept _ _).mp h).1
      (show (0 : Fin 2) ∈ ([0] : List (Fin 2)) by decide))]
  simp only [Nat.add_zero]
  unfold GatherDims.start
  rw [dif_pos hm]
  have hsi : (takeRowsDims sb ss wf).siIdx (ix2 p q) ⟨List.idxOf (0 : Fin 2) (takeRowsDims sb ss wf).startIndexMap,
      List.idxOf_lt_length_iff.2 hm⟩ = ix2 p (0 : Fin 1) := by
    funext b; refine Fin.ext ?_
    match b with
    | ⟨0, _⟩ => rfl
    | ⟨1, _⟩ => rfl
  rw [hsi]
  show min (idx (ix2 p (0 : Fin 1))).toInt.toNat (R - ss 0) = _
  rw [hsl]

/-- On the column axis the operand coordinate of result (p, q) is q: no start index, no batching, offset q. -/
theorem takeRows_axis1 {R C M : Nat} (sb : List (Fin 2)) (ss : Fin 2 → Nat)
    (wf : GatherDims.WF ⟨2, ![R, C]⟩ ⟨2, ![M, 1]⟩ ⟨2, ![M, C]⟩ [1] [0] [] [0] sb 1 ss)
    (idx : IVec ⟨2, ![M, 1]⟩ 32) (p : Fin M) (q : Fin C) :
    (takeRowsDims sb ss wf).start (ix2 p q) idx (1 : Fin 2) + (takeRowsDims sb ss wf).batchCoord (ix2 p q) (1 : Fin 2)
        + (takeRowsDims sb ss wf).offCoord (ix2 p q) (1 : Fin 2) = q.val := by
  have hm : (1 : Fin 2) ∉ (takeRowsDims sb ss wf).startIndexMap := by
    show (1 : Fin 2) ∉ ([0] : List (Fin 2)); decide
  have hk : (1 : Fin 2) ∈ (takeRowsDims sb ss wf).sKept :=
    (GatherDims.mem_sKept _ _).mpr ⟨by show (1 : Fin 2) ∉ ([0] : List (Fin 2)); decide, List.not_mem_nil⟩
  rw [GatherDims.batchCoord_eq_zero _ _ _ List.not_mem_nil]
  unfold GatherDims.start GatherDims.offCoord
  rw [dif_neg hm, dif_pos hk]
  simp only [Nat.add_zero, Nat.zero_add]
  rfl

/-- THE TAKE OF ROWS. A gather of an operand [R, C] at a column [M, 1] of start indices, whose one start-indexed axis
    (the rows) is collapsed and whose column axis is the one offset axis (the printed dimension numbers, each by `rfl`),
    reads at (p, q) the operand's row named by start index p, read signed and clamped into [0, R − 1], at column q. -/
theorem take_rows_apply {R C M : Nat} (d : GatherDims ⟨2, ![R, C]⟩ ⟨2, ![M, 1]⟩ ⟨2, ![M, C]⟩)
    (hoff : d.offsetDims = [1]) (hcoll : d.collapsedSliceDims = [0]) (hob : d.operandBatchingDims = [])
    (hsim : d.startIndexMap = [0]) (hivd : d.indexVectorDim = 1) (hR : 0 < R)
    (x : (⟨2, ![R, C]⟩ : Shape).Idx → α) (idx : IVec ⟨2, ![M, 1]⟩ 32) (p : Fin M) (q : Fin C) :
    Host.gather d x idx (ix2 p q)
      = x (ix2 (⟨min (idx (ix2 p (0 : Fin 1))).toInt.toNat (R - 1), by omega⟩ : Fin R) q) := by
  obtain ⟨od, cd, ob, sb, sim, ivd, ss, wf⟩ := d
  dsimp only at hoff hcoll hob hsim hivd
  subst hoff hcoll hob hsim hivd
  show Host.gather (takeRowsDims sb ss wf) x idx (ix2 p q) = _
  unfold Host.gather
  congr 1
  funext a
  refine Fin.ext ?_
  show (takeRowsDims sb ss wf).start (ix2 p q) idx a + (takeRowsDims sb ss wf).batchCoord (ix2 p q) a
    + (takeRowsDims sb ss wf).offCoord (ix2 p q) a = _
  match a with
  | ⟨0, _⟩ => exact takeRows_axis0 sb ss wf idx p q
  | ⟨1, _⟩ => exact takeRows_axis1 sb ss wf idx p q

end Cert.TakeRows

end
-- ==== Proof.LibDotPlain.lean ====
/-
  The plain matrix product read at an index, at the ideal values: the matrix unit's product of an [m, k] block with a
  [k, n] block (the left operand's last axis against the right operand's first) into the zero accumulator, at (a, b), is
  `∑ c, A (a, c) · B (c, b)`: one finite sum over the contracted coordinate, no rounding and no order of summation left.
  Stated over the literal record of dimension numbers with its well-formedness fact a variable, so it applies to a
  program's own record whatever name that fact has.
-/
import Idealize.ShloMosaic.PureOps.Ideal.Laws
import Idealize.ShloMosaic.Lib.ValueIdx

noncomputable section

open scoped BigOperators

namespace Cert.LibDotPlain

open Idealize.ShloMosaic Idealize.ShloMosaic.ValueIdx

variable {m n k : Nat}

/-- The matrix unit's product of an [m, k] block with a [k, n] block, accumulated from zero: entry (a, b) is the sum over
    the contracted coordinate `c` of `A (a, c) · B (c, b)`. -/
theorem matmul_zero_apply {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    FloatOps.matmul (⟨[1], [0], [0], [1], [], [], w⟩ : DotDims ⟨2, ![m, k]⟩ ⟨2, ![k, n]⟩ ⟨2, ![m, n]⟩) prec A B
        (constant ⟨2, ![m, n]⟩ .f32 0x00000000#32) (ix2 a b)
      = ∑ c : Fin k, A (ix2 a c) * B (ix2 c b) := by
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.LibDotPlain

end
-- ==== Proof.KernelScore.lean ====
/-
  The kernel program's value is the arc scorer.

  Read at the ideal values, the kernel program computes: the embedding table times the transposed head half of the hidden
  weights and times the transposed dependent half (two tables of projected rows); a take of rows of each table at the
  arcs' indices; the score column of the two taken arrays; the column flattened. Entry (r, d) of a projected table is
  ∑ₖ emb[r, k] · W[d, off + k], because transposing and cutting W only renames its entries and a change of format is the
  identity. With every index in [-4096, 4096) the take fills nothing, so row e of a taken array is the table's row named
  by the wrapped index e, clamped. Hence arc e's entry of the result is the arc score of those two rows: the same sums,
  term for term, as the specification.
-/
import proofs.«401059_j22050362098343_2_alg».proof.Proof.Stretches
import proofs.«401059_j22050362098343_2_alg».proof.Proof.Column
import proofs.«401059_j22050362098343_2_alg».proof.Proof.LibTakeWrap
import proofs.«401059_j22050362098343_2_alg».proof.Proof.LibTakeRows
import proofs.«401059_j22050362098343_2_alg».proof.Proof.LibDotPlain
import Idealize.ShloMosaic.Lib.ValueLayout

set_option maxRecDepth 16384

noncomputable section

open scoped BigOperators

namespace Cert.ArcScore

open Cert.KernelIdeal Cert.KernelIdeal.Gen
open Idealize.ShloMosaic Idealize.ShloMosaic.ValueIdx

/-- An [a, 1] column cast to [a] reads, at i, the column at (i, 0). -/
theorem flat_apply {a : ℕ} {α : Type} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- The embedding table as the first kernel loads it is the table itself. -/
theorem emb_loaded (a0 : FVec Ideal S4096x768 .f32) (r : Fin 4096) (k : Fin 768) :
    k0_pay1 (F := Ideal) (truncf .bf16 a0 bitsLt_bf16_f32) (ix2 r k) = a0 (ix2 r k) := by
  unfold k0_pay1
  rw [shapeCast_self]
  rfl

/-- A transposed half of the hidden weights at (k, d) is W at (d, off + k). -/
theorem half_apply (a1 : FVec Ideal S512x1536 .f32) (off : Nat) (h : S512x1536.Slices ![0, off] S512x768)
    (hoff : off + 768 ≤ 1536) (k : Fin 768) (d : Fin 512) :
    Stretch.halfT (F := Ideal) a1 off h (ix2 k d) = a1 (ix2 d (⟨off + k.val, by omega⟩ : Fin 1536)) := by
  show transpose S768x512 [1, 0] (extractStridedSlice S512x768 ![0, off] a1 h) transposes_S512x768_S768x512_1_0 (ix2 k d) = _
  refine (transpose_ix2_apply _ transposes_S512x768_S768x512_1_0 k d).trans ?_
  exact slice2_axis1_apply off a1 h d k ⟨off + k.val, by omega⟩ rfl

/-- THE HEAD TABLE at (r, d): token r projected onto hidden unit d through the first 768 weight columns. -/
theorem head_table_apply (a0 : FVec Ideal S4096x768 .f32) (a1 : FVec Ideal S512x1536 .f32) (r : Fin 4096) (d : Fin 512) :
    k0_pay2 (F := Ideal) (truncf .bf16 a0 bitsLt_bf16_f32) (Stretch.halfT a1 0 slices_S512x1536_S512x768_0_0) (ix2 r d)
      = proj a0 a1 0 (by omega) r d := by
  unfold k0_pay2
  refine (LibDotPlain.matmul_zero_apply dot_S4096x768_S768x512_S4096x512_1_0_0_1_n_n_wf none _ _ r d).trans ?_
  unfold proj
  refine Finset.sum_congr rfl fun k _ => congrArg₂ (· * ·) (emb_loaded a0 r k) ?_
  rw [shapeCast_self]
  exact half_apply a1 0 _ (by omega) k d

/-- THE DEPENDENT TABLE at (r, d): token r projected onto hidden unit d through the last 768 weight columns. -/
theorem dep_table_apply (a0 : FVec Ideal S4096x768 .f32) (a1 : FVec Ideal S512x1536 .f32) (r : Fin 4096) (d : Fin 512) :
    k0_pay3 (F := Ideal) (truncf .bf16 a0 bitsLt_bf16_f32) (Stretch.halfT a1 768 slices_S512x1536_S512x768_0_768) (ix2 r d)
      = proj a0 a1 768 (by omega) r d := by
  unfold k0_pay3
  refine (LibDotPlain.matmul_zero_apply dot_S4096x768_S768x512_S4096x512_1_0_0_1_n_n_wf none _ _ r d).trans ?_
  unfold proj
  refine Finset.sum_congr rfl fun k _ => congrArg₂ (· * ·) (emb_loaded a0 r k) ?_
  rw [shapeCast_self]
  exact half_apply a1 768 _ (by omega) k d

theorem toInt_4096 : (4096#32 : BitVec 32).toInt = 4096 := by decide
theorem toInt_4095 : (4095#32 : BitVec 32).toInt = (4096#32 : BitVec 32).toInt - 1 := by decide

/-- THE TAKE at (e, d), every index in [-4096, 4096): the table's row named by arc e's wrapped index. -/
theorem take_apply (x : FVec Ideal S4096x512 .f32) (idx : IVec S262144 32)
    (hidx : ∀ p : Fin 262144, -4096 ≤ (idx (ix1 p)).toInt ∧ (idx (ix1 p)).toInt < 4096) (e : Fin 262144) (d : Fin 512) :
    Stretch.takeFill (F := Ideal) x idx (ix2 e d)
      = x (ix2 (rowOf (LibTakeFill.wrapCol 4096#32 bcast_S_S262144 bcast_S262144_S262144x1_0 idx (ix2 e (0 : Fin 1)))) d) := by
  have hidx' : ∀ p : Fin 262144, -(4096#32 : BitVec 32).toInt ≤ (idx (ix1 p)).toInt
      ∧ (idx (ix1 p)).toInt < (4096#32 : BitVec 32).toInt := fun p => by rw [toInt_4096]; exact hidx p
  show select _ _ _ (ix2 e d) = _
  rw [LibTakeWrap.take_fill_eq_of_signed (C := 512) 4096#32 4095#32 (by rw [toInt_4096]; norm_num) toInt_4095
    bcast_S_S262144 bcast_S262144_S262144x1_0 bcast_S_S262144x1 bcast_S1_S1x1_1 bcast_S1x1_S262144x1_0_1
    reducesTo_S262144x1_S262144_d1 h_S_ bcast_S262144_S262144x512_0 idx hidx']
  exact TakeRows.take_rows_apply gather_S4096x512_S262144x1_S262144x512_1_0_n_n_0_1_1512 rfl rfl rfl rfl rfl (by norm_num)
    x _ e d

/-- THE KERNEL PROGRAM'S RESULT, as a function of the argument arrays, is the arc scorer at the wrapped index columns. -/
theorem kernel_scores (a0 : FVec Ideal S4096x768 .f32) (a1 : FVec Ideal S512x1536 .f32) (a2 : FVec Ideal S512 .f32)
    (a3 : FVec Ideal S1x512 .f32) (a4 : FVec Ideal S1 .f32) (a5 a6 : IVec S262144 32)
    (h5 : ∀ p : Fin 262144, -4096 ≤ (a5 (ix1 p)).toInt ∧ (a5 (ix1 p)).toInt < 4096)
    (h6 : ∀ p : Fin 262144, -4096 ≤ (a6 (ix1 p)).toInt ∧ (a6 (ix1 p)).toInt < 4096) :
    (shapeCast S262144
        (Column.column
          (Stretch.takeFill (k0_pay2 (F := Ideal) (truncf .bf16 a0 bitsLt_bf16_f32)
            (Stretch.halfT a1 0 slices_S512x1536_S512x768_0_0)) a5)
          (Stretch.takeFill (k0_pay3 (F := Ideal) (truncf .bf16 a0 bitsLt_bf16_f32)
            (Stretch.halfT a1 768 slices_S512x1536_S512x768_0_768)) a6)
          (shapeCast S1x512 a2 shapeCasts_S512_S1x512) a3 (shapeCast S1x1 a4 shapeCasts_S1_S1x1))
        shapeCasts_S262144x1_S262144 : FVec Ideal S262144 .f32)
      = scores a0 a1 a2 a3 a4 (LibTakeFill.wrapCol 4096#32 bcast_S_S262144 bcast_S262144_S262144x1_0 a5)
          (LibTakeFill.wrapCol 4096#32 bcast_S_S262144 bcast_S262144_S262144x1_0 a6) := by
  funext i
  obtain ⟨e, rfl⟩ : ∃ e : Fin 262144, i = ix1 e := ⟨i 0, eq_ix1 i⟩
  refine (flat_apply _ shapeCasts_S262144x1_S262144 e).trans ?_
  unfold Column.column scores arcOf hidden
  refine congrArg₂ (· + ·) (Finset.sum_congr rfl fun d _ => ?_) ?_
  · refine congrArg₂ (· * ·) (congrArg Ideal.tanh (congrArg₂ (· + ·) (congrArg₂ (· + ·) ?_ ?_) ?_)) rfl
    · refine (take_apply _ a5 h5 e d).trans ?_
      exact head_table_apply a0 a1 _ d
    · refine (take_apply _ a6 h6 e d).trans ?_
      exact dep_table_apply a0 a1 _ d
    · exact shapeCast_a_1a_apply a2 shapeCasts_S512_S1x512 (0 : Fin 1) d
  · exact shapeCast_a_1a_apply a4 shapeCasts_S1_S1x1 (0 : Fin 1) (0 : Fin 1)

end Cert.ArcScore

end
-- ==== Proof.IndexRange.lean ====
/-
  What the precondition says of the two index vectors.

  The precondition is a conjunction; its last two conjuncts say, of the head indices and of the dependent indices, that
  every entry e satisfies -4096 ≤ e and e < 4096 as signed 32-bit integers: each is a conjunction over all 262144
  entries of the two comparisons' bits. Read back entry by entry, that is a bound on each entry's signed value.
-/
import proofs.«401059_j22050362098343_2_alg».proof.Pre_finite_inputs
import Idealize.ShloMosaic.Lib.ReduceAll
import Idealize.ShloMosaic.Lib.Affine
import Idealize.ShloMosaic.Lib.ValueIdx

noncomputable section

namespace Cert.ArcScore

open Idealize.ShloMosaic Idealize.ShloMosaic.ValueIdx

instance : Subsingleton (Cert.Pre_finite_inputs.S_).Idx := ⟨fun a b => funext fun d => d.elim0⟩

/-- The word 4294963200 is -4096 as a signed integer, and the word 4096 is 4096. -/
theorem toInt_neg4096 : (4294963200#32 : BitVec 32).toInt = -4096 := by decide
theorem toInt_4096 : (4096#32 : BitVec 32).toInt = 4096 := by decide

/-- Under the precondition every head index and every dependent index lies in [-4096, 4096) as a signed integer. -/
theorem index_range {F : FTy → Type} [FloatOps F] [Cert.Pre_finite_inputs.Facts]
    (a0 : FVec F Cert.Pre_finite_inputs.S4096x768 .f32) (a1 : FVec F Cert.Pre_finite_inputs.S512x1536 .f32)
    (a2 : FVec F Cert.Pre_finite_inputs.S512 .f32) (a3 : FVec F Cert.Pre_finite_inputs.S1x512 .f32)
    (a4 : FVec F Cert.Pre_finite_inputs.S1 .f32) (a5 a6 : IVec Cert.Pre_finite_inputs.S262144 32)
    (h : Cert.Pre_finite_inputs.fn (F := F) a0 a1 a2 a3 a4 a5 a6 = fun _ => 1#1) (i : Cert.Pre_finite_inputs.S262144.Idx) :
    (-4096 ≤ (a5 i).toInt ∧ (a5 i).toInt < 4096) ∧ (-4096 ≤ (a6 i).toInt ∧ (a6 i).toInt < 4096) := by
  have h0 : Cert.Pre_finite_inputs.fn (F := F) a0 a1 a2 a3 a4 a5 a6 ix0 = 1#1 := congrFun h ix0
  obtain ⟨h30, h36⟩ := IntOp.andi_eq_one.1 h0
  obtain ⟨-, h29⟩ := IntOp.andi_eq_one.1 h30
  have e6 := Host.reduce_andi_all _ _ _ _ _ h36 i
  have e5 := Host.reduce_andi_all _ _ _ _ _ h29 i
  obtain ⟨e6a, e6b⟩ := IntOp.andi_eq_one.1 e6
  obtain ⟨e5a, e5b⟩ := IntOp.andi_eq_one.1 e5
  have l6 := IntOp.cmpi_sge.1 e6a
  have u6 := IntOp.cmpi_slt.1 e6b
  have l5 := IntOp.cmpi_sge.1 e5a
  have u5 := IntOp.cmpi_slt.1 e5b
  refine ⟨⟨?_, ?_⟩, ⟨?_, ?_⟩⟩
  · exact toInt_neg4096 ▸ l5
  · exact toInt_4096 ▸ u5
  · exact toInt_neg4096 ▸ l6
  · exact toInt_4096 ▸ u6

end Cert.ArcScore

end
-- ==== Proof.KernelResult.lean ====
/-
  The kernel program's run ends with the arc scores in its result buffer.

  The run passes seven boundaries: the launch, the first host stretch, the first kernel, the two takes, the bias
  reshapes, the second kernel, the last reshape. The contents of the buffers at each boundary are a function of the
  contents at the one before; followed from the launch memory to the last boundary, the result buffer holds the flattened
  score column of the two taken tables, which is the arc scorer of the argument arrays when every index is in
  [-4096, 4096), as the precondition says.
-/
import proofs.«401059_j22050362098343_2_alg».proof.Proof.KernelRun
import proofs.«401059_j22050362098343_2_alg».proof.Proof.Tables
import proofs.«401059_j22050362098343_2_alg».proof.Proof.KernelScore
import proofs.«401059_j22050362098343_2_alg».proof.Proof.IndexRange
import proofs.«401059_j22050362098343_2_alg».proof.Defs

set_option maxRecDepth 16384

noncomputable section

namespace Cert.ArcScore.Run

open Cert.KernelIdeal Cert.KernelIdeal.Gen Cert.ArcScore
open Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

/-- The first kernel's embedding input, as the launch memory gives it. -/
abbrev embIn : FVec Ideal S4096x768 .bf16 := truncf .bf16 (m ((c : Thread nD τ).loc main_arg0)) bitsLt_bf16_f32
/-- The two projected tables, as functions of the launch memory. -/
abbrev headTab : FVec Ideal S4096x512 .f32 :=
  k0_pay2 (F := Ideal) (embIn m c) (Stretch.halfT (F := Ideal) (m ((c : Thread nD τ).loc main_arg1)) 0 slices_S512x1536_S512x768_0_0)
abbrev depTab : FVec Ideal S4096x512 .f32 :=
  k0_pay3 (F := Ideal) (embIn m c) (Stretch.halfT (F := Ideal) (m ((c : Thread nD τ).loc main_arg1)) 768 slices_S512x1536_S512x768_0_768)

/-! ## After the first host stretch -/

theorem W1_emb : W1 m ρ c (Proc.devRef .tc main_v4) = embIn m c := Stretch.emb_in (W0 m ρ c)
theorem W1_headw : W1 m ρ c (Proc.devRef .tc main_v5)
    = Stretch.halfT (F := Ideal) (m ((c : Thread nD τ).loc main_arg1)) 0 slices_S512x1536_S512x768_0_0 := Stretch.head_half_in (W0 m ρ c)
theorem W1_depw : W1 m ρ c (Proc.devRef .tc main_v6)
    = Stretch.halfT (F := Ideal) (m ((c : Thread nD τ).loc main_arg1)) 768 slices_S512x1536_S512x768_0_768 := Stretch.dep_half_in (W0 m ρ c)
theorem W1_arg2 : W1 m ρ c (Proc.devRef .tc main_arg2) = m ((c : Thread nD τ).loc main_arg2) := Stretch.first_keeps_arg2 (W0 m ρ c)
theorem W1_arg3 : W1 m ρ c (Proc.devRef .tc main_arg3) = m ((c : Thread nD τ).loc main_arg3) := Stretch.first_keeps_arg3 (W0 m ρ c)
theorem W1_arg4 : W1 m ρ c (Proc.devRef .tc main_arg4) = m ((c : Thread nD τ).loc main_arg4) := Stretch.first_keeps_arg4 (W0 m ρ c)
theorem W1_arg5 : W1 m ρ c (Proc.devRef .tc main_arg5) = m ((c : Thread nD τ).loc main_arg5) := Stretch.first_keeps_arg5 (W0 m ρ c)
theorem W1_arg6 : W1 m ρ c (Proc.devRef .tc main_arg6) = m ((c : Thread nD τ).loc main_arg6) := Stretch.first_keeps_arg6 (W0 m ρ c)

/-! ## After the first kernel -/

theorem W2_head : W2 m ρ c (Proc.devRef .tc main_v7_0) = headTab m c :=
  (W2_arr m ρ c 3).trans ((Tables.head_table (V1 m ρ) c).trans (by
    show k0_pay2 (F := Ideal) (W1 m ρ c (Proc.devRef .tc main_v4)) (W1 m ρ c (Proc.devRef .tc main_v5)) = _
    rw [W1_emb, W1_headw]))
theorem W2_dep : W2 m ρ c (Proc.devRef .tc main_v7_1) = depTab m c :=
  (W2_arr m ρ c 4).trans ((Tables.dep_table (V1 m ρ) c).trans (by
    show k0_pay3 (F := Ideal) (W1 m ρ c (Proc.devRef .tc main_v4)) (W1 m ρ c (Proc.devRef .tc main_v6)) = _
    rw [W1_emb, W1_depw]))
theorem W2_arg2 : W2 m ρ c (Proc.devRef .tc main_arg2) = m ((c : Thread nD τ).loc main_arg2) :=
  (W2_of_ne m ρ c main_arg2 (by decide)).trans (W1_arg2 m ρ c)
theorem W2_arg3 : W2 m ρ c (Proc.devRef .tc main_arg3) = m ((c : Thread nD τ).loc main_arg3) :=
  (W2_of_ne m ρ c main_arg3 (by decide)).trans (W1_arg3 m ρ c)
theorem W2_arg4 : W2 m ρ c (Proc.devRef .tc main_arg4) = m ((c : Thread nD τ).loc main_arg4) :=
  (W2_of_ne m ρ c main_arg4 (by decide)).trans (W1_arg4 m ρ c)
theorem W2_arg5 : W2 m ρ c (Proc.devRef .tc main_arg5) = m ((c : Thread nD τ).loc main_arg5) :=
  (W2_of_ne m ρ c main_arg5 (by decide)).trans (W1_arg5 m ρ c)
theorem W2_arg6 : W2 m ρ c (Proc.devRef .tc main_arg6) = m ((c : Thread nD τ).loc main_arg6) :=
  (W2_of_ne m ρ c main_arg6 (by decide)).trans (W1_arg6 m ρ c)

/-! ## After the take of head rows -/

theorem W3_head : W3 m ρ c (Proc.devRef .tc main_v8)
    = Stretch.takeFill (F := Ideal) (headTab m c) (m ((c : Thread nD τ).loc main_arg5)) :=
  (Stretch.head_take (W2 m ρ c)).trans (by rw [W2_head, W2_arg5])
theorem W3_deptab : W3 m ρ c (Proc.devRef .tc main_v7_1) = depTab m c :=
  (Stretch.head_take_keeps_dep_table (W2 m ρ c)).trans (W2_dep m ρ c)
theorem W3_arg6 : W3 m ρ c (Proc.devRef .tc main_arg6) = m ((c : Thread nD τ).loc main_arg6) :=
  (Stretch.head_take_keeps_dep_idx (W2 m ρ c)).trans (W2_arg6 m ρ c)
theorem W3_arg2 : W3 m ρ c (Proc.devRef .tc main_arg2) = m ((c : Thread nD τ).loc main_arg2) :=
  (Stretch.head_take_keeps_arg2 (W2 m ρ c)).trans (W2_arg2 m ρ c)
theorem W3_arg3 : W3 m ρ c (Proc.devRef .tc main_arg3) = m ((c : Thread nD τ).loc main_arg3) :=
  (Stretch.head_take_keeps_arg3 (W2 m ρ c)).trans (W2_arg3 m ρ c)
theorem W3_arg4 : W3 m ρ c (Proc.devRef .tc main_arg4) = m ((c : Thread nD τ).loc main_arg4) :=
  (Stretch.head_take_keeps_arg4 (W2 m ρ c)).trans (W2_arg4 m ρ c)

/-! ## After the take of dependent rows -/

theorem W4_dep : W4 m ρ c (Proc.devRef .tc main_v9)
    = Stretch.takeFill (F := Ideal) (depTab m c) (m ((c : Thread nD τ).loc main_arg6)) :=
  (Stretch.dep_take (W3 m ρ c)).trans (by rw [W3_deptab, W3_arg6])
theorem W4_head : W4 m ρ c (Proc.devRef .tc main_v8)
    = Stretch.takeFill (F := Ideal) (headTab m c) (m ((c : Thread nD τ).loc main_arg5)) :=
  (Stretch.dep_take_keeps_head (W3 m ρ c)).trans (W3_head m ρ c)
theorem W4_arg2 : W4 m ρ c (Proc.devRef .tc main_arg2) = m ((c : Thread nD τ).loc main_arg2) :=
  (Stretch.dep_take_keeps_arg2 (W3 m ρ c)).trans (W3_arg2 m ρ c)
theorem W4_arg3 : W4 m ρ c (Proc.devRef .tc main_arg3) = m ((c : Thread nD τ).loc main_arg3) :=
  (Stretch.dep_take_keeps_arg3 (W3 m ρ c)).trans (W3_arg3 m ρ c)
theorem W4_arg4 : W4 m ρ c (Proc.devRef .tc main_arg4) = m ((c : Thread nD τ).loc main_arg4) :=
  (Stretch.dep_take_keeps_arg4 (W3 m ρ c)).trans (W3_arg4 m ρ c)

/-! ## At the second kernel's entry -/

theorem W5_head : W5 m ρ c (Proc.devRef .tc main_v8)
    = Stretch.takeFill (F := Ideal) (headTab m c) (m ((c : Thread nD τ).loc main_arg5)) :=
  (Stretch.biases_keep_head (W4 m ρ c)).trans (W4_head m ρ c)
theorem W5_dep : W5 m ρ c (Proc.devRef .tc main_v9)
    = Stretch.takeFill (F := Ideal) (depTab m c) (m ((c : Thread nD τ).loc main_arg6)) :=
  (Stretch.biases_keep_dep (W4 m ρ c)).trans (W4_dep m ρ c)
theorem W5_bias : W5 m ρ c (Proc.devRef .tc main_v10)
    = (shapeCast S1x512 (m ((c : Thread nD τ).loc main_arg2)) shapeCasts_S512_S1x512 : FVec Ideal S1x512 .f32) :=
  (Stretch.bias_row (W4 m ρ c)).trans (by rw [W4_arg2])
theorem W5_wout : W5 m ρ c (Proc.devRef .tc main_arg3) = m ((c : Thread nD τ).loc main_arg3) :=
  (Stretch.biases_keep_arg3 (W4 m ρ c)).trans (W4_arg3 m ρ c)
theorem W5_outb : W5 m ρ c (Proc.devRef .tc main_v11)
    = (shapeCast S1x1 (m ((c : Thread nD τ).loc main_arg4)) shapeCasts_S1_S1x1 : FVec Ideal S1x1 .f32) :=
  (Stretch.out_bias_cell (W4 m ρ c)).trans (by rw [W4_arg4])

/-! ## After the second kernel, and at the return -/

theorem W6_col : W6 m ρ c (Proc.devRef .tc main_v12)
    = Column.column (Stretch.takeFill (F := Ideal) (headTab m c) (m ((c : Thread nD τ).loc main_arg5)))
        (Stretch.takeFill (F := Ideal) (depTab m c) (m ((c : Thread nD τ).loc main_arg6)))
        (shapeCast S1x512 (m ((c : Thread nD τ).loc main_arg2)) shapeCasts_S512_S1x512)
        (m ((c : Thread nD τ).loc main_arg3))
        (shapeCast S1x1 (m ((c : Thread nD τ).loc main_arg4)) shapeCasts_S1_S1x1) :=
  (W6_arr m ρ c 5).trans ((Column.column_eq (V5 m ρ) c).trans (by
    show Column.column (W5 m ρ c (Proc.devRef .tc main_v8)) (W5 m ρ c (Proc.devRef .tc main_v9))
      (W5 m ρ c (Proc.devRef .tc main_v10)) (W5 m ρ c (Proc.devRef .tc main_arg3)) (W5 m ρ c (Proc.devRef .tc main_v11)) = _
    rw [W5_head, W5_dep, W5_bias, W5_wout, W5_outb]))

/-- THE RESULT BUFFER at the run's last boundary, under the bounds on the indices: the arc scores. -/
theorem W7_result
    (h5 : ∀ p : Fin 262144, -4096 ≤ ((m ((c : Thread nD τ).loc main_arg5) : IVec S262144 32) (ix1 p)).toInt
      ∧ ((m ((c : Thread nD τ).loc main_arg5) : IVec S262144 32) (ix1 p)).toInt < 4096)
    (h6 : ∀ p : Fin 262144, -4096 ≤ ((m ((c : Thread nD τ).loc main_arg6) : IVec S262144 32) (ix1 p)).toInt
      ∧ ((m ((c : Thread nD τ).loc main_arg6) : IVec S262144 32) (ix1 p)).toInt < 4096) :
    W7 m ρ c (Proc.devRef .tc main_v13)
      = scores (m ((c : Thread nD τ).loc main_arg0)) (m ((c : Thread nD τ).loc main_arg1))
          (m ((c : Thread nD τ).loc main_arg2)) (m ((c : Thread nD τ).loc main_arg3)) (m ((c : Thread nD τ).loc main_arg4))
          (LibTakeFill.wrapCol 4096#32 bcast_S_S262144 bcast_S262144_S262144x1_0 (m ((c : Thread nD τ).loc main_arg5)))
          (LibTakeFill.wrapCol 4096#32 bcast_S_S262144 bcast_S262144_S262144x1_0 (m ((c : Thread nD τ).loc main_arg6))) :=
  (Stretch.result_flat (W6 m ρ c)).trans (by
    rw [W6_col]
    exact kernel_scores (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) h5 h6)

end Cert.ArcScore.Run

end
-- ==== Proof.RefScore.lean ====
/-
  The reference's value is the arc scorer.

  The reference wraps each index once, gathers the embedding rows at the wrapped indices (the gather clamps its start
  index into [0, 4095]), contracts each gathered row with the head half and with the dependent half of the hidden
  weights, adds the two and the bias, takes tanh, contracts with the transposed output weights, adds the output bias and
  drops the unit axis. Read at arc e these are, term for term, the specification's sums at the rows the two wrapped
  index columns name: nothing is rearranged.
-/
import proofs.«401059_j22050362098343_2_alg».proof.Proof.Gen.ReferenceIdeal.Read
import proofs.«401059_j22050362098343_2_alg».proof.Proof.ScoreSpec
import proofs.«401059_j22050362098343_2_alg».proof.Proof.LibTakeFill
import proofs.«401059_j22050362098343_2_alg».proof.Proof.LibTakeRows

set_option maxRecDepth 16384

noncomputable section

open scoped BigOperators

namespace Cert.ArcScore.Ref

open Cert.ReferenceIdeal Cert.ReferenceIdeal.Gen Cert.ReferenceIdeal.Read Cert.ArcScore
open Idealize.ShloMosaic Idealize.ShloMosaic.ValueIdx

/-- The reference's start-index column is the index vector wrapped once and laid as a column. -/
theorem start_col (x5 : IVec S262144 32) :
    val_main_v7 (F := Ideal) x5 = LibTakeFill.wrapCol 4096#32 bcast_S_S262144 bcast_S262144_S262144x1_0 x5 := rfl

theorem start_col' (x6 : IVec S262144 32) :
    val_main_v15 (F := Ideal) x6 = LibTakeFill.wrapCol 4096#32 bcast_S_S262144 bcast_S262144_S262144x1_0 x6 := rfl

/-- The gathered head rows contracted with the head half of the weights, at (e, d): the projection of the row arc e's
    wrapped head index names. -/
theorem head_proj (x0 : FVec Ideal S4096x768 .f32) (x1 : FVec Ideal S512x1536 .f32) (x5 : IVec S262144 32)
    (e : Fin 262144) (d : Fin 512) :
    val_main_v9 (F := Ideal) x0 x1 x5 (ix2 e d)
      = proj x0 x1 0 (by omega)
          (rowOf (LibTakeFill.wrapCol 4096#32 bcast_S_S262144 bcast_S262144_S262144x1_0 x5 (ix2 e (0 : Fin 1)))) d := by
  rw [val_main_v9_apply]
  unfold proj
  refine Finset.sum_congr rfl fun k _ => congrArg₂ (· * ·) ?_ ?_
  · have hl : lidx_main_v9 (ix2 e d) k = ix2 e k := funext fun a => Fin.ext (match a with | ⟨0, _⟩ => rfl | ⟨1, _⟩ => rfl)
    rw [hl]
    show Host.gather gather_S4096x768_S262144x1_S262144x768_1_0_n_n_0_1_1768 x0 (val_main_v7 (F := Ideal) x5) (ix2 e k) = _
    rw [start_col]
    exact TakeRows.take_rows_apply gather_S4096x768_S262144x1_S262144x768_1_0_n_n_0_1_1768 rfl rfl rfl rfl rfl (by norm_num)
      x0 _ e k
  · rw [val_main_v0_apply]
    refine congrArg x1 (funext fun a => Fin.ext ?_)
    match a with
    | ⟨0, _⟩ => rfl
    | ⟨1, _⟩ => show k.val = 0 + k.val; omega

/-- The same for the dependent rows and the dependent half of the weights. -/
theorem dep_proj (x0 : FVec Ideal S4096x768 .f32) (x1 : FVec Ideal S512x1536 .f32) (x6 : IVec S262144 32)
    (e : Fin 262144) (d : Fin 512) :
    val_main_v17 (F := Ideal) x0 x1 x6 (ix2 e d)
      = proj x0 x1 768 (by omega)
          (rowOf (LibTakeFill.wrapCol 4096#32 bcast_S_S262144 bcast_S262144_S262144x1_0 x6 (ix2 e (0 : Fin 1)))) d := by
  rw [val_main_v17_apply]
  unfold proj
  refine Finset.sum_congr rfl fun k _ => congrArg₂ (· * ·) ?_ ?_
  · have hl : lidx_main_v17 (ix2 e d) k = ix2 e k := funext fun a => Fin.ext (match a with | ⟨0, _⟩ => rfl | ⟨1, _⟩ => rfl)
    rw [hl]
    show Host.gather gather_S4096x768_S262144x1_S262144x768_1_0_n_n_0_1_1768 x0 (val_main_v15 (F := Ideal) x6) (ix2 e k) = _
    rw [start_col']
    exact TakeRows.take_rows_apply gather_S4096x768_S262144x1_S262144x768_1_0_n_n_0_1_1768 rfl rfl rfl rfl rfl (by norm_num)
      x0 _ e k
  · rw [val_main_v1_apply]
    refine congrArg x1 (funext fun a => Fin.ext ?_)
    match a with
    | ⟨0, _⟩ => rfl
    | ⟨1, _⟩ => rfl

/-- The hidden layer at (e, d). -/
theorem hidden_apply (x0 : FVec Ideal S4096x768 .f32) (x1 : FVec Ideal S512x1536 .f32) (x2 : FVec Ideal S512 .f32)
    (x5 x6 : IVec S262144 32) (e : Fin 262144) (d : Fin 512) :
    val_main_v22 (F := Ideal) x0 x1 x2 x5 x6 (ix2 e d)
      = hidden
          (proj x0 x1 0 (by omega)
            (rowOf (LibTakeFill.wrapCol 4096#32 bcast_S_S262144 bcast_S262144_S262144x1_0 x5 (ix2 e (0 : Fin 1)))))
          (proj x0 x1 768 (by omega)
            (rowOf (LibTakeFill.wrapCol 4096#32 bcast_S_S262144 bcast_S262144_S262144x1_0 x6 (ix2 e (0 : Fin 1))))) x2 d := by
  rw [val_main_v22_apply, val_main_v21_apply, val_main_v18_apply, head_proj, dep_proj, val_main_v20_apply,
    val_main_v19_apply]
  unfold hidden
  show Ideal.tanh (_ + _ + x2 _) = Ideal.tanh (_ + _ + x2 _)
  refine congrArg (fun z => Ideal.tanh (_ + _ + x2 z)) (funext fun a => Fin.ext ?_)
  match a with
  | ⟨0, _⟩ => rfl

/-- THE REFERENCE'S RESULT, as a function of the argument arrays, is the arc scorer at the wrapped index columns. -/
theorem ref_scores (x0 : FVec Ideal S4096x768 .f32) (x1 : FVec Ideal S512x1536 .f32) (x2 : FVec Ideal S512 .f32)
    (x3 : FVec Ideal S1x512 .f32) (x4 : FVec Ideal S1 .f32) (x5 x6 : IVec S262144 32) :
    val_main_v28 (F := Ideal) x0 x1 x2 x3 x4 x5 x6
      = scores x0 x1 x2 x3 x4 (LibTakeFill.wrapCol 4096#32 bcast_S_S262144 bcast_S262144_S262144x1_0 x5)
          (LibTakeFill.wrapCol 4096#32 bcast_S_S262144 bcast_S262144_S262144x1_0 x6) := by
  funext i
  obtain ⟨e, rfl⟩ : ∃ e : Fin 262144, i = ix1 e := ⟨i 0, eq_ix1 i⟩
  have hI : idx_main_v28 (ix1 e) = ix2 e (0 : Fin 1) :=
    funext fun a => Fin.ext (match a with | ⟨0, _⟩ => Nat.div_one _ | ⟨1, _⟩ => rfl)
  rw [val_main_v28_apply, hI, val_main_v27_apply, val_main_v24_apply, val_main_v26_apply, val_main_v25_apply]
  unfold scores arcOf
  refine congrArg₂ (· + ·) (Finset.sum_congr rfl fun d _ => ?_) ?_
  · have hl : lidx_main_v24 (ix2 e (0 : Fin 1)) d = ix2 e d :=
      funext fun a => Fin.ext (match a with | ⟨0, _⟩ => rfl | ⟨1, _⟩ => rfl)
    rw [hl, hidden_apply, val_main_v23_apply]
    refine congrArg₂ (· * ·) rfl (congrArg x3 (funext fun a => Fin.ext ?_))
    match a with
    | ⟨0, _⟩ => rfl
    | ⟨1, _⟩ => rfl
  · refine congrArg x4 (funext fun a => Fin.ext ?_)
    match a with
    | ⟨0, _⟩ => rfl

end Cert.ArcScore.Ref

end
-- ==== Proof.lean ====
/-
  The kernel program and its jnp reference compute the same arc scores.

  Both programs score 262144 arcs over 4096 token embeddings: an arc's hidden layer is tanh of the head token's
  projection plus the dependent token's projection plus a bias, and its score is the hidden layer against the output
  weights plus a bias. The reference gathers the two embedding rows of an arc and projects them; the kernel program
  projects the whole embedding table once through each half of the hidden weights (its first kernel) and gathers rows of
  the two projected tables. Projecting a gathered row and gathering a projected row are the same finite sum of the same
  products, so no law of arithmetic on the extended reals is needed and the finiteness of the inputs is never used.

  What is used of the precondition is its conjunct on the indices: every head and dependent index lies in
  [-4096, 4096). Outside that range the reference indexes out of range (its gather clamps the index), while the kernel
  program's take marks the row as missing; inside it both read the row the index, wrapped once, names.

  The kernel program's run is followed boundary by boundary to the specification (Proof/KernelResult.lean); the
  reference's run is its generated run, read one operation at a time (Proof/RefScore.lean); both results are the one
  function Proof/ScoreSpec.lean states.
-/
import proofs.«401059_j22050362098343_2_alg».proof.Defs
import proofs.«401059_j22050362098343_2_alg».proof.Proof.Gen.Kernel
import proofs.«401059_j22050362098343_2_alg».proof.Proof.Gen.Kernel.Frame
import proofs.«401059_j22050362098343_2_alg».proof.Proof.Gen.KernelIdeal
import proofs.«401059_j22050362098343_2_alg».proof.Proof.Gen.KernelIdeal.Frame
import proofs.«401059_j22050362098343_2_alg».proof.Proof.Gen.ReferenceIdeal
import proofs.«401059_j22050362098343_2_alg».proof.Proof.Gen.ReferenceIdeal.Run
import proofs.«401059_j22050362098343_2_alg».proof.Proof.Gen.ReferenceIdeal.Read
import proofs.«401059_j22050362098343_2_alg».proof.Proof.Gen.Pre_finite_inputs
import proofs.«401059_j22050362098343_2_alg».proof.Proof.KernelResult
import proofs.«401059_j22050362098343_2_alg».proof.Proof.RefScore

set_option maxRecDepth 16384

noncomputable section

namespace Cert.Proof

open Idealize.ShloMosaic Idealize.ShloMosaic.TcCoe Idealize.ShloMosaic.ValueIdx Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- At the ideal values both programs end with the arc scores of the argument arrays in their result buffers. -/
theorem algebraic : Cert.algebraic_KernelIdeal_ReferenceIdeal := by
  intro m ρ m' ρ' hpre hagree
  have hr := fun (c : Dev Cert.KernelIdeal.nD) (p : Fin 262144) =>
    Cert.ArcScore.index_range (F := Ideal) _ _ _ _ _ _ _ (hpre c) (ix1 p)
  refine ⟨fun c => Cert.ArcScore.scores
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (Cert.LibTakeFill.wrapCol 4096#32 Cert.KernelIdeal.Facts₀.bcast_S_S262144
        Cert.KernelIdeal.Facts₀.bcast_S262144_S262144x1_0
        (m ((c.tc : Thread Cert.KernelIdeal.nD Cert.KernelIdeal.τ).loc Cert.KernelIdeal.main_arg5)))
      (Cert.LibTakeFill.wrapCol 4096#32 Cert.KernelIdeal.Facts₀.bcast_S_S262144
        Cert.KernelIdeal.Facts₀.bcast_S262144_S262144x1_0
        (m ((c.tc : Thread Cert.KernelIdeal.nD Cert.KernelIdeal.τ).loc Cert.KernelIdeal.main_arg6))), ?_, ?_⟩
  · exact (θ_run Cert.KernelIdeal.defs _ _).mono
      (fun r h c => ⟨(h c).1.trans (Cert.ArcScore.Run.W7_result m ρ c (fun p => (hr c p).1) (fun p => (hr c p).2)), (h c).2⟩)
      (Cert.KernelIdeal.Result.run_result m ρ)
  · refine (θ_run Cert.ReferenceIdeal.defs _ _).mono (fun _ h c => ⟨(h c).1.trans ?_, (h c).2⟩)
      (Cert.ReferenceIdeal.Value.run (F := Ideal) m' ρ')
    refine (Cert.ReferenceIdeal.Read.val_main_v28_eq _ _ _ _ _ _ _).trans ?_
    rw [Cert.ArcScore.Ref.ref_scores, (hagree c).1, (hagree c).2.1, (hagree c).2.2.1, (hagree c).2.2.2.1,
      (hagree c).2.2.2.2.1, (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
